-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S512 : Shape := ⟨1, ![512]⟩
abbrev S256x512 : Shape := ⟨2, ![256, 512]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S16x4096x128 .f32) (main_arg1 : FVec F S512 .f32) (main_arg2 : FVec F S512 .f32) (main_arg3 : FVec F S256x512 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S16x4096x128 : Shape := ⟨3, ![16, 4096, 128]⟩
abbrev S512 : Shape := ⟨1, ![512]⟩
abbrev S256x512 : Shape := ⟨2, ![256, 512]⟩
abbrev S512x2x64x128 : Shape := ⟨4, ![512, 2, 64, 128]⟩
abbrev S1x512 : Shape := ⟨2, ![1, 512]⟩
abbrev S16384x256 : Shape := ⟨2, ![16384, 256]⟩
abbrev S64x2x64x128 : Shape := ⟨4, ![64, 2, 64, 128]⟩
abbrev S2048x256 : Shape := ⟨2, ![2048, 256]⟩
abbrev S64x1x64x128 : Shape := ⟨4, ![64, 1, 64, 128]⟩
abbrev S64x64x128 : Shape := ⟨3, ![64, 64, 128]⟩
abbrev S1x256 : Shape := ⟨2, ![1, 256]⟩
abbrev S1x2048 : Shape := ⟨2, ![1, 2048]⟩
abbrev S2048x1 : Shape := ⟨2, ![2048, 1]⟩
abbrev S2048x128 : Shape := ⟨2, ![2048, 128]⟩
abbrev S256x128 : Shape := ⟨2, ![256, 128]⟩
abbrev S16x1024x256 : Shape := ⟨3, ![16, 1024, 256]⟩

abbrev nBuf : Space → Nat
  | .hbm => 9
  | .vmem => 7
  | .smem => 0
  | _ => 0

abbrev bufTy : (tb : Table) → Fin (tcTables nBuf tb) → BufTy
  | .hbm, ⟨0, _⟩ => ⟨S16x4096x128, .f32⟩
  | .hbm, ⟨1, _⟩ => ⟨S512, .f32⟩
  | .hbm, ⟨2, _⟩ => ⟨S512, .f32⟩
  | .hbm, ⟨3, _⟩ => ⟨S256x512, .f32⟩
  | .hbm, ⟨4, _⟩ => ⟨S512x2x64x128, .f32⟩
  | .hbm, ⟨5, _⟩ => ⟨S1x512, .f32⟩
  | .hbm, ⟨6, _⟩ => ⟨S1x512, .f32⟩
  | .hbm, ⟨7, _⟩ => ⟨S16384x256, .f32⟩
  | .hbm, ⟨8, _⟩ => ⟨S16x1024x256, .f32⟩
  | .local _ .vmem, ⟨0, _⟩ => ⟨S64x2x64x128, .f32⟩
  | .local _ .vmem, ⟨1, _⟩ => ⟨S64x2x64x128, .f32⟩
  | .local _ .vmem, ⟨2, _⟩ => ⟨S1x512, .f32⟩
  | .local _ .vmem, ⟨3, _⟩ => ⟨S1x512, .f32⟩
  | .local _ .vmem, ⟨4, _⟩ => ⟨S256x512, .f32⟩
  | .local _ .vmem, ⟨5, _⟩ => ⟨S2048x256, .f32⟩
  | .local _ .vmem, ⟨6, _⟩ => ⟨S2048x256, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x128_S512x2x64x128 : S16x4096x128.ShapeCasts S512x2x64x128
  shapeCasts_S512_S1x512 : S512.ShapeCasts S1x512
  inb_S64x2x64x128_S64x2x64x128_0_0_0_0 : ∀ a, (![0, 0, 0, 0] : Fin 4 → Nat) a + S64x2x64x128.size a ≤ S64x2x64x128.size a
  h_S64x2x64x128 : 0 < S64x2x64x128.numel
  shapeCasts_S64x2x64x128_S64x2x64x128 : S64x2x64x128.ShapeCasts S64x2x64x128
  slices_S64x2x64x128_o0_0_0_0_S64x1x64x128 : S64x2x64x128.Slices ![0, 0, 0, 0] S64x1x64x128
  shapeCasts_S64x1x64x128_S64x64x128 : S64x1x64x128.ShapeCasts S64x64x128
  bitsLt_bf16_f32 : FTy.bits .bf16 < FTy.bits .f32
  shapeCasts_S64x64x128_S2048x256 : S64x64x128.ShapeCasts S2048x256
  slices_S64x2x64x128_o0_1_0_0_S64x1x64x128 : S64x2x64x128.Slices ![0, 1, 0, 0] S64x1x64x128
  transposes_S1x2048_p1_0_S2048x1 : S1x2048.Transposes [1, 0] S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  broadcasts_S1x512_S256x512 : S1x512.Broadcasts S256x512
  slices_S2048x256_o0_0_S2048x128 : S2048x256.Slices ![0, 0] S2048x128
  slices_S2048x256_o0_128_S2048x128 : S2048x256.Slices ![0, 128] S2048x128
  slices_S256x512_o0_0_S256x128 : S256x512.Slices ![0, 0] S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S16384x256_S16x1024x256 : S16384x256.ShapeCasts S16x1024x256
  dot_S1x256_S2048x256_S1x2048_1_1_0_0_n_n_wf : DotDims.WF S1x256 S2048x256 S1x2048 [1] [1] [0] [0] [] []
  dot_S1x512_S256x512_S1x256_1_1_0_0_n_n_wf : DotDims.WF S1x512 S256x512 S1x256 [1] [1] [0] [0] [] []
  dot_S2048x128_S256x128_S2048x256_1_1_0_0_n_n_wf : DotDims.WF S2048x128 S256x128 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2x64x128.size a ≤ S512x2x64x128.size a
  hwx0_0 : ∀ i : grid0.Coords, EltTy.bits .f32 = 32 ∨ (Rect.block (s := S512x2x64x128) S64x2x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S16384x256.size a
  hwx0_4 : ∀ i : grid0.Coords, EltTy.bits .f32 = 32 ∨ (Rect.block (s := S16384x256) S2048x256.size (cc0_transform_4 i) (hinb0_4 i)).WholeWords (EltTy.packing .f32)

variable [Facts₀]

def dot_S1x256_S2048x256_S1x2048_1_1_0_0_n_n : DotDims S1x256 S2048x256 S1x2048 where
  lhsContracting := [1]
  rhsContracting := [1]
  lhsNonContracting := [0]
  rhsNonContracting := [0]
  lhsBatch := []
  rhsBatch := []
  wf := dot_S1x256_S2048x256_S1x2048_1_1_0_0_n_n_wf
def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf

abbrev win0_0 : Pipeline.Window sig grid0 :=
  Pipeline.Window.ofSpec (Memref.whole main_v0) S64x2x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S512 : Shape := ⟨1, ![512]⟩
abbrev S256x512 : Shape := ⟨2, ![256, 512]⟩
abbrev S16x64x64x128 : Shape := ⟨4, ![16, 64, 64, 128]⟩
abbrev S512x2x32x256 : Shape := ⟨4, ![512, 2, 32, 256]⟩
abbrev S2x256 : Shape := ⟨2, ![2, 256]⟩
abbrev S512x256 : Shape := ⟨2, ![512, 256]⟩
abbrev S2x256x256 : Shape := ⟨3, ![2, 256, 256]⟩
abbrev S16384x256 : Shape := ⟨2, ![16384, 256]⟩
abbrev S32x2x32x256 : Shape := ⟨4, ![32, 2, 32, 256]⟩
abbrev S1024x256 : Shape := ⟨2, ![1024, 256]⟩
abbrev S32x1x32x256 : Shape := ⟨4, ![32, 1, 32, 256]⟩
abbrev S32x32x256 : Shape := ⟨3, ![32, 32, 256]⟩
abbrev S1024 : Shape := ⟨1, ![1024]⟩
abbrev S1024x1 : Shape := ⟨2, ![1024, 1]⟩
abbrev S1x256 : Shape := ⟨2, ![1, 256]⟩
abbrev S1x256x256 : Shape := ⟨3, ![1, 256, 256]⟩
abbrev S256x256 : Shape := ⟨2, ![256, 256]⟩
abbrev S16x1024x256 : Shape := ⟨3, ![16, 1024, 256]⟩

abbrev nBuf : Space → Nat
  | .hbm => 12
  | .vmem => 7
  | .smem => 0
  | _ => 0

abbrev bufTy : (tb : Table) → Fin (tcTables nBuf tb) → BufTy
  | .hbm, ⟨0, _⟩ => ⟨S16x4096x128, .f32⟩
  | .hbm, ⟨1, _⟩ => ⟨S512, .f32⟩
  | .hbm, ⟨2, _⟩ => ⟨S512, .f32⟩
  | .hbm, ⟨3, _⟩ => ⟨S256x512, .f32⟩
  | .hbm, ⟨4, _⟩ => ⟨S16x64x64x128, .f32⟩
  | .hbm, ⟨5, _⟩ => ⟨S512x2x32x256, .f32⟩
  | .hbm, ⟨6, _⟩ => ⟨S2x256, .f32⟩
  | .hbm, ⟨7, _⟩ => ⟨S2x256, .f32⟩
  | .hbm, ⟨8, _⟩ => ⟨S512x256, .f32⟩
  | .hbm, ⟨9, _⟩ => ⟨S2x256x256, .f32⟩
  | .hbm, ⟨10, _⟩ => ⟨S16384x256, .f32⟩
  | .hbm, ⟨11, _⟩ => ⟨S16x1024x256, .f32⟩
  | .local _ .vmem, ⟨0, _⟩ => ⟨S32x2x32x256, .f32⟩
  | .local _ .vmem, ⟨1, _⟩ => ⟨S32x2x32x256, .f32⟩
  | .local _ .vmem, ⟨2, _⟩ => ⟨S2x256, .f32⟩
  | .local _ .vmem, ⟨3, _⟩ => ⟨S2x256, .f32⟩
  | .local _ .vmem, ⟨4, _⟩ => ⟨S2x256x256, .f32⟩
  | .local _ .vmem, ⟨5, _⟩ => ⟨S1024x256, .f32⟩
  | .local _ .vmem, ⟨6, _⟩ => ⟨S1024x256, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x128_S16x64x64x128 : S16x4096x128.ShapeCasts S16x64x64x128
  shapeCasts_S16x64x64x128_S512x2x32x256 : S16x64x64x128.ShapeCasts S512x2x32x256
  shapeCasts_S512_S2x256 : S512.ShapeCasts S2x256
  transposes_S256x512_S512x256_1_0 : S256x512.Transposes [1, 0] S512x256
  shapeCasts_S512x256_S2x256x256 : S512x256.ShapeCasts S2x256x256
  inb_S32x2x32x256_S32x2x32x256_0_0_0_0 : ∀ a, (![0, 0, 0, 0] : Fin 4 → Nat) a + S32x2x32x256.size a ≤ S32x2x32x256.size a
  h_S32x2x32x256 : 0 < S32x2x32x256.numel
  shapeCasts_S32x2x32x256_S32x2x32x256 : S32x2x32x256.ShapeCasts S32x2x32x256
  slices_S32x2x32x256_o0_0_0_0_S32x1x32x256 : S32x2x32x256.Slices ![0, 0, 0, 0] S32x1x32x256
  shapeCasts_S32x1x32x256_S32x32x256 : S32x1x32x256.ShapeCasts S32x32x256
  shapeCasts_S32x32x256_S1024x256 : S32x32x256.ShapeCasts S1024x256
  slices_S32x2x32x256_o0_1_0_0_S32x1x32x256 : S32x2x32x256.Slices ![0, 1, 0, 0] S32x1x32x256
  reduces_S1024x256_S1024 : S1024x256.Reduces [1] S1024
  shapeCasts_S1024_S1024x1 : S1024.ShapeCasts S1024x1
  broadcasts_S1024x1_S1024x256 : S1024x1.Broadcasts S1024x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  slices_S2x256_o0_0_S1x256 : S2x256.Slices ![0, 0] S1x256
  broadcasts_S1x256_S1024x256 : S1x256.Broadcasts S1024x256
  slices_S2x256_o1_0_S1x256 : S2x256.Slices ![1, 0] S1x256
  inb_S2x256x256_S2x256x256_0_0_0 : ∀ a, (![0, 0, 0] : Fin 3 → Nat) a + S2x256x256.size a ≤ S2x256x256.size a
  h_S2x256x256 : 0 < S2x256x256.numel
  shapeCasts_S2x256x256_S2x256x256 : S2x256x256.ShapeCasts S2x256x256
  slices_S2x256x256_o0_0_0_S1x256x256 : S2x256x256.Slices ![0, 0, 0] S1x256x256
  shapeCasts_S1x256x256_S256x256 : S1x256x256.ShapeCasts S256x256
  slices_S2x256x256_o1_0_0_S1x256x256 : S2x256x256.Slices ![1, 0, 0] S1x256x256
  inb_S1024x256_S1024x256_0_0 : ∀ a, (![0, 0] : Fin 2 → Nat) a + S1024x256.size a ≤ S1024x256.size a
  h_S1024x256 : 0 < S1024x256.numel
  shapeCasts_S16384x256_S16x1024x256 : S16384x256.ShapeCasts S16x1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x32x256.size a ≤ S512x2x32x256.size a
  hwx0_0 : ∀ i : grid0.Coords, EltTy.bits .f32 = 32 ∨ (Rect.block (s := S512x2x32x256) S32x2x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .f32 = 32 ∨ (Rect.block (s := S2x256) S2x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256x256.size a ≤ S2x256x256.size a
  hwx0_3 : ∀ i : grid0.Coords, EltTy.bits .f32 = 32 ∨ (Rect.block (s := S2x256x256) S2x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v1) S32x2x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Finite.lean ====
/-
  Under the precondition every entry of the four argument arrays is a finite real.
-/
import proofs.«177595_g2000604256433566_pallasbulk_677_14_alg».proof.Pre_finite_inputs
import proofs.«177595_g2000604256433566_pallasbulk_677_14_alg».proof.Proof.Gen.Pre_finite_inputs
import Idealize.ShloMosaic.Lib.ReduceAll
import Idealize.ShloMosaic.Lib.ValueIdx
import Idealize.ShloMosaic.PureOps.Ideal

noncomputable section

namespace Cert.MergeNorm

open Idealize.ShloMosaic Cert.Pre_finite_inputs

/-- The pattern `0x7F800000` (sign 0, exponent all ones, fraction 0) denotes `+∞`. -/
private theorem ofBits_inf : Ideal.ofBits .f32 0x7F800000#32 = (⊤ : EReal) := by
  simp [Ideal.ofBits, Ideal.ieee]

/-- An extended real whose absolute value `max v (-v)` compares below `+∞` is a real number:
    at `⊤` the maximum is `⊤`, at `⊥` it is `-⊥ = ⊤`, and neither is below `⊤`. -/
private theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

private instance : Subsingleton S_.Idx := ⟨fun a b => funext fun d => d.elim0⟩

/-- `all (|x| < +∞)` read back: if the reduction by `and`, over all axes, of the elementwise comparison
    of `|x|` with the broadcast `+∞` is 1, every entry of `x` is a real number. -/
private theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 e i
  exact real_of_abs_lt_inf (x i) hi

/-- The precondition, all ones, says each argument's every entry is a real number. -/
theorem real_of_pre [Cert.Pre_finite_inputs.Facts] (x : FVec Ideal S16x4096x128 .f32) (g b : FVec Ideal S512 .f32)
    (w : FVec Ideal S256x512 .f32) (h : Cert.Pre_finite_inputs.fn (F := Ideal) x g b w = fun _ => 1#1) :
    (∀ i, ∃ r : ℝ, x i = (r : EReal)) ∧ (∀ i, ∃ r : ℝ, g i = (r : EReal)) ∧ (∀ i, ∃ r : ℝ, b i = (r : EReal))
      ∧ (∀ i, ∃ r : ℝ, w i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x _ _ _ h1, all_real g _ _ _ h2, all_real b _ _ _ h3, all_real w _ _ _ h4⟩

end Cert.MergeNorm

end
-- ==== Proof.Spec.lean ====
/-
  The mathematics both programs compute, stated once over the extended reals and free of either program.

  A merged token gathers the 2×2 patch of image positions (2·ho + r, 2·wo + s), r, s ∈ {0, 1}, of a 64 × 64 image with
  128 channels into one vector of 512 entries, ordered (r, s, channel).  The token is normalised over its 512 entries
  (mean, biased variance, reciprocal root of variance + ε), scaled by γ, shifted by β, and projected by a 256 × 512 matrix.

  Two arrangements of that computation are written down here.
  * `normProj`: centre first — the variance is the mean of the squared centred entries, the projection is taken of the
    normalised vector, the 512 entries summed in two halves of 256.
  * `foldProj`: the affine map is folded through the projection — the variance is the mean of squares minus the
    square of the mean, and  out = rstd · (x · (γ∘w)) − (rstd · mean) · Σ γ∘w + Σ β∘w,  the first product summed in
    four quarters of 128.
  Over finite reals the two agree (Proof/Algebra.lean); `G` is the first, read over the argument arrays.
-/
import Idealize.ShloMosaic.PureOps.Ideal
import Idealize.ShloMosaic.Lib.ValueIdx

noncomputable section

namespace Cert.MergeNorm

open Idealize.ShloMosaic Idealize.ShloMosaic.ValueIdx

/-! ## One token: 512 entries, in halves and in quarters -/

/-- Entry `k` of the first half (image row 2·ho). -/
def lo (k : Fin 256) : Fin 512 := ⟨k.val, by have := k.isLt; omega⟩
/-- Entry `k` of the second half (image row 2·ho + 1). -/
def hi (k : Fin 256) : Fin 512 := ⟨256 + k.val, by have := k.isLt; omega⟩
/-- Entry `k` of quarter `a` (image row 2·ho + a / 2, image column 2·wo + a % 2). -/
def qd (a : Fin 4) (k : Fin 128) : Fin 512 := ⟨a.val * 128 + k.val, by have := k.isLt; have := a.isLt; omega⟩

/-- The reciprocal of the token length, 1/512, as the programs spell it. -/
def cN : EReal := Ideal.ofBits .f32 0x3B000000#32
/-- The variance offset ε (the single-precision number nearest 10⁻⁵), as the programs spell it. -/
def cE : EReal := Ideal.ofBits .f32 0x3727C5AC#32

/-- The mean of a token's entries: the two half sums, added, times `c`. -/
def mean (c : EReal) (X : Fin 512 → EReal) : EReal :=
  (∑ k : Fin 256, X (lo k) + ∑ k : Fin 256, X (hi k)) * c

/-- The reciprocal standard deviation, the variance taken of the centred entries. -/
def rstd (c ε : EReal) (X : Fin 512 → EReal) : EReal :=
  Ideal.rsqrt ((∑ k : Fin 256, (X (lo k) - mean c X) * (X (lo k) - mean c X)
      + ∑ k : Fin 256, (X (hi k) - mean c X) * (X (hi k) - mean c X)) * c + ε)

/-- Normalise, scale and shift, then project: one output entry, `w` the projection's row. -/
def normProj (c ε : EReal) (X g b w : Fin 512 → EReal) : EReal :=
  ∑ k : Fin 256, ((X (lo k) - mean c X) * rstd c ε X * g (lo k) + b (lo k)) * w (lo k)
    + ∑ k : Fin 256, ((X (hi k) - mean c X) * rstd c ε X * g (hi k) + b (hi k)) * w (hi k)

/-- The reciprocal standard deviation, the variance taken as mean of squares minus squared mean. -/
def rstdK (c ε : EReal) (X : Fin 512 → EReal) : EReal :=
  Ideal.rsqrt (((∑ k : Fin 256, X (lo k) * X (lo k) + ∑ k : Fin 256, X (hi k) * X (hi k)) * c
      - mean c X * mean c X) + ε)

/-- The same output entry with the affine map folded through the projection. -/
def foldProj (c ε : EReal) (X g b w : Fin 512 → EReal) : EReal :=
  ((((∑ k : Fin 128, X (qd 0 k) * (w (qd 0 k) * g (qd 0 k))
        + ∑ k : Fin 128, X (qd 1 k) * (w (qd 1 k) * g (qd 1 k)))
        + ∑ k : Fin 128, X (qd 2 k) * (w (qd 2 k) * g (qd 2 k)))
        + ∑ k : Fin 128, X (qd 3 k) * (w (qd 3 k) * g (qd 3 k))) * rstdK c ε X
      - (rstdK c ε X * mean c X) * (∑ k : Fin 512, w k * g k))
    + ∑ k : Fin 512, b k * w k

/-! ## The arrays -/

/-- The tokens: 16 images of 64 × 64 positions and 128 channels, positions row-major. -/
abbrev SX : Shape := ⟨3, ![16, 4096, 128]⟩
/-- γ and β. -/
abbrev SV : Shape := ⟨1, ![512]⟩
/-- The projection, one row per output channel. -/
abbrev SW : Shape := ⟨2, ![256, 512]⟩
/-- The result before its last reshape: 16 · 32 · 32 merged tokens by 256 output channels. -/
abbrev SO : Shape := ⟨2, ![16384, 256]⟩

/-- Where entry `k` of merged token `n` = (image, ho, wo) lies in the token array: image n / 1024, position
    (2·ho + k / 256) · 64 + 2·wo + (k % 256) / 128 with ho = (n % 1024) / 32 and wo = n % 32, channel k % 128. -/
def chan (n : Fin 16384) (k : Fin 512) : SX.Idx :=
  ix3 (⟨n.val / 1024, by have := n.isLt; omega⟩ : Fin 16)
    (⟨(n.val % 1024 / 32 * 2 + k.val / 256) * 64 + (n.val % 32 * 2 + k.val % 256 / 128), by
      have := n.isLt; have := k.isLt; omega⟩ : Fin 4096)
    (⟨k.val % 128, by omega⟩ : Fin 128)

/-- Merged token `n` of the token array `x`. -/
def tok (x : SX.Idx → EReal) (n : Fin 16384) : Fin 512 → EReal := fun k => x (chan n k)

/-- THE RESULT, entry (token, output channel): `normProj` of the merged token, γ, β and the projection's row. -/
def G (x : SX.Idx → EReal) (g b : SV.Idx → EReal) (w : SW.Idx → EReal) : SO.Idx → EReal :=
  fun j => normProj cN cE (tok x (j 0)) (fun k => g (ix1 k)) (fun k => b (ix1 k)) (fun k => w (ix2 (j 1) k))

end Cert.MergeNorm

end
-- ==== Proof.RefPayload.lean ====
/-
  The reference kernel's stored value at one entry of its output block, as the normalised projection of the block's rows.
-/
import proofs.«177595_g2000604256433566_pallasbulk_677_14_alg».proof.Proof.Gen.ReferenceIdeal.Skeleton
import proofs.«177595_g2000604256433566_pallasbulk_677_14_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Pay

open Idealize.ShloMosaic Idealize.ShloMosaic.ValueIdx Cert.ReferenceIdeal Cert.ReferenceIdeal.Gen Cert.MergeNorm

/-- Entry `k` of the block's token `p` = (row pair p / 32, column pair p % 32): plane k / 256, lane k % 256. -/
def xIdx (p : Fin 1024) (k : Fin 512) : S32x2x32x256.Idx :=
  ix4 (⟨p.val / 32, by have := p.isLt; omega⟩ : Fin 32) (⟨k.val / 256, by have := k.isLt; omega⟩ : Fin 2)
    (⟨p.val % 32, by omega⟩ : Fin 32) (⟨k.val % 256, by omega⟩ : Fin 256)
/-- Entry `k` of γ or β, laid out in two rows of 256. -/
def vIdx (k : Fin 512) : S2x256.Idx :=
  ix2 (⟨k.val / 256, by have := k.isLt; omega⟩ : Fin 2) (⟨k.val % 256, by omega⟩ : Fin 256)
/-- Entry `k` of the projection's row for output channel `q`, the transposed matrix laid out in two slabs of 256 rows. -/
def wIdx (q : Fin 256) (k : Fin 512) : S2x256x256.Idx :=
  ix3 (⟨k.val / 256, by have := k.isLt; omega⟩ : Fin 2) (⟨k.val % 256, by omega⟩ : Fin 256) q

/-! ## Layout operations at explicit coordinates -/

/-- A length-`a` vector cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Row `r` of a `[2, 256]` array, broadcast over 1024 rows, reads at `(p, k)` the array at `(r, k)`. -/
private theorem rowBroadcast_apply {α : Type} (v : S2x256.Idx → α) (o : ℕ) (r : Fin 2) (hr : r.val = o)
    (hs : S2x256.Slices ![o, 0] S1x256) (hb : S1x256.Broadcasts S1024x256) (p : Fin 1024) (k : Fin 256) :
    broadcastTo S1024x256 (extractStridedSlice S1x256 ![o, 0] v hs) hb (ix2 p k) = v (ix2 r k) :=
  (broadcastTo_1b_ab_apply _ hb p k).trans
    (slice2_axis0_apply o v hs (0 : Fin 1) k r (by rw [hr]; rfl))

/-! ## The token's halves, the projection's slabs -/

/-- Plane `r` of the block, flattened to tokens by lanes: at `(p, k)` the block at (p / 32, r, p % 32, k). -/
private theorem plane_apply {α : Type} (x0 : S32x2x32x256.Idx → α) (o : ℕ) (r : Fin 2) (hr : r.val = o)
    (hs : S32x2x32x256.Slices ![0, o, 0, 0] S32x1x32x256) (h1 : S32x1x32x256.ShapeCasts S32x32x256)
    (h2 : S32x32x256.ShapeCasts S1024x256) (p : Fin 1024) (k : Fin 256) :
    shapeCast S1024x256 (shapeCast S32x32x256 (extractStridedSlice S32x1x32x256 ![0, o, 0, 0] x0 hs) h1) h2 (ix2 p k)
      = x0 (ix4 (⟨p.val / 32, by have := p.isLt; omega⟩ : Fin 32) r (⟨p.val % 32, by omega⟩ : Fin 32) k) := by
  refine (shapeCast_apply _ h2 (ix2 p k)
    (ix3 (⟨p.val / 32, by have := p.isLt; omega⟩ : Fin 32) (⟨p.val % 32, by omega⟩ : Fin 32) k) ?_).trans ?_
  · rw [Shape.rowMajor_val_three, Shape.rowMajor_val_two]
    show (p.val / 32 * 32 + p.val % 32) * 256 + k.val = p.val * 256 + k.val
    omega
  refine (shapeCast_apply _ h1 _
    (ix4 (⟨p.val / 32, by have := p.isLt; omega⟩ : Fin 32) (0 : Fin 1) (⟨p.val % 32, by omega⟩ : Fin 32) k) ?_).trans ?_
  · rw [Shape.rowMajor_val_four, Shape.rowMajor_val_three]
    show ((p.val / 32 * 1 + 0) * 32 + p.val % 32) * 256 + k.val = (p.val / 32 * 32 + p.val % 32) * 256 + k.val
    omega
  exact slice4_axis1_apply o x0 hs _ (0 : Fin 1) _ k r (by rw [hr]; rfl)

/-- Slab `r` of the projection as a matrix: at `(k, q)` the array at `(r, k, q)`. -/
private theorem slab_apply {α : Type} (x3 : S2x256x256.Idx → α) (o : ℕ) (r : Fin 2) (hr : r.val = o)
    (hs : S2x256x256.Slices ![o, 0, 0] S1x256x256) (hc : S1x256x256.ShapeCasts S256x256)
    (k q : Fin 256) :
    shapeCast S256x256 (extractStridedSlice S1x256x256 ![o, 0, 0] x3 hs) hc (ix2 k q) = x3 (ix3 r k q) := by
  refine (shapeCast_1ab_ab_apply _ hc k q).trans ?_
  refine extractStridedSlice_apply _ x3 hs _ _ fun ax => ?_
  match ax with
  | ⟨0, _⟩ => exact hr
  | ⟨1, _⟩ => exact (Nat.zero_add _).symm
  | ⟨2, _⟩ => exact (Nat.zero_add _).symm

/-! ## The index maps on the two halves -/

private theorem xIdx_lo (p : Fin 1024) (k : Fin 256) :
    xIdx p (lo k) = ix4 (⟨p.val / 32, by have := p.isLt; omega⟩ : Fin 32) (0 : Fin 2) (⟨p.val % 32, by omega⟩ : Fin 32) k := by
  funext ax; apply Fin.ext
  match ax with
  | ⟨0, _⟩ => rfl
  | ⟨1, _⟩ => show k.val / 256 = 0; omega
  | ⟨2, _⟩ => rfl
  | ⟨3, _⟩ => show k.val % 256 = k.val; omega
private theorem xIdx_hi (p : Fin 1024) (k : Fin 256) :
    xIdx p (hi k) = ix4 (⟨p.val / 32, by have := p.isLt; omega⟩ : Fin 32) (1 : Fin 2) (⟨p.val % 32, by omega⟩ : Fin 32) k := by
  funext ax; apply Fin.ext
  match ax with
  | ⟨0, _⟩ => rfl
  | ⟨1, _⟩ => show (256 + k.val) / 256 = 1; omega
  | ⟨2, _⟩ => rfl
  | ⟨3, _⟩ => show (256 + k.val) % 256 = k.val; omega
private theorem vIdx_lo (k : Fin 256) : vIdx (lo k) = ix2 (0 : Fin 2) k := by
  funext ax; apply Fin.ext
  match ax with
  | ⟨0, _⟩ => show k.val / 256 = 0; omega
  | ⟨1, _⟩ => show k.val % 256 = k.val; omega
private theorem vIdx_hi (k : Fin 256) : vIdx (hi k) = ix2 (1 : Fin 2) k := by
  funext ax; apply Fin.ext
  match ax with
  | ⟨0, _⟩ => show (256 + k.val) / 256 = 1; omega
  | ⟨1, _⟩ => show (256 + k.val) % 256 = k.val; omega
private theorem wIdx_lo (q k : Fin 256) : wIdx q (lo k) = ix3 (0 : Fin 2) k q := by
  funext ax; apply Fin.ext
  match ax with
  | ⟨0, _⟩ => show k.val / 256 = 0; omega
  | ⟨1, _⟩ => show k.val % 256 = k.val; omega
  | ⟨2, _⟩ => rfl
private theorem wIdx_hi (q k : Fin 256) : wIdx q (hi k) = ix3 (1 : Fin 2) k q := by
  funext ax; apply Fin.ext
  match ax with
  | ⟨0, _⟩ => show (256 + k.val) / 256 = 1; omega
  | ⟨1, _⟩ => show (256 + k.val) % 256 = k.val; omega
  | ⟨2, _⟩ => rfl

/-! ## The two non-pointwise operations -/

/-- The sum over the lanes: at token `p` the sum over `k` of the entries `(p, k)`. -/
private theorem rowSum_apply (v : FVec Ideal S1024x256 .f32) (h : S1024x256.Reduces [1] S1024)
    (hφ : FKind.Formats .f32) (hacc : (0x00000000#32 : BitVec 32) = FKind.add.neutral .f32 hφ) (p : Fin 1024) :
    multiReduction (F := Ideal) .add [1] S1024 v 0x00000000#32 h hφ hacc (ix1 p) = ∑ k : Fin 256, v (ix2 p k) := by
  refine (Ideal.multiReduction_add_single v _ h hφ hacc (ix1 p)).trans ?_
  refine Finset.sum_congr rfl fun k _ => congrArg v ?_
  funext ax
  match ax with
  | ⟨0, _⟩ => rfl
  | ⟨1, _⟩ => rfl

private theorem lhs_dot_0 (j : S1024x256.Idx) (k : dot_S1024x256_S256x256_S1024x256_1_0_0_1_n_n.contr.Idx) :
    (dot_S1024x256_S256x256_S1024x256_1_0_0_1_n_n.lhsIdx j k 0).val = (j 0).val := by
  simp [DotDims.lhsIdx, dot_S1024x256_S256x256_S1024x256_1_0_0_1_n_n]; rfl
private theorem lhs_dot_1 (j : S1024x256.Idx) (k : dot_S1024x256_S256x256_S1024x256_1_0_0_1_n_n.contr.Idx) :
    (dot_S1024x256_S256x256_S1024x256_1_0_0_1_n_n.lhsIdx j k 1).val = (k ⟨0, by decide⟩).val :=
  dot_S1024x256_S256x256_S1024x256_1_0_0_1_n_n.lhsIdx_val_of_single (cl := 1) rfl j k
private theorem rhs_dot_0 (j : S1024x256.Idx) (k : dot_S1024x256_S256x256_S1024x256_1_0_0_1_n_n.contr.Idx) :
    (dot_S1024x256_S256x256_S1024x256_1_0_0_1_n_n.rhsIdx j k 0).val = (k ⟨0, by decide⟩).val :=
  dot_S1024x256_S256x256_S1024x256_1_0_0_1_n_n.rhsIdx_val_of_single (cr := 0) rfl j k
private theorem rhs_dot_1 (j : S1024x256.Idx) (k : dot_S1024x256_S256x256_S1024x256_1_0_0_1_n_n.contr.Idx) :
    (dot_S1024x256_S256x256_S1024x256_1_0_0_1_n_n.rhsIdx j k 1).val = (j 1).val := by
  simp [DotDims.rhsIdx, dot_S1024x256_S256x256_S1024x256_1_0_0_1_n_n]; rfl

/-- The product into the zero accumulator: at `(p, q)` the sum over `k` of `A (p, k) · B (k, q)`. -/
private theorem matmul_zero_apply (A : FVec Ideal S1024x256 .f32) (B : FVec Ideal S256x256 .f32) (p : Fin 1024) (q : Fin 256) :
    matmul (F := Ideal) dot_S1024x256_S256x256_S1024x256_1_0_0_1_n_n none A B (constant (F := Ideal) S1024x256 .f32 0x00000000#32) (ix2 p q)
      = ∑ k : Fin 256, A (ix2 p k) * B (ix2 k q) := by
  refine (Ideal.matmul_constant_zero_apply dot_S1024x256_S256x256_S1024x256_1_0_0_1_n_n none A B (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have hl : dot_S1024x256_S256x256_S1024x256_1_0_0_1_n_n.lhsIdx (ix2 p q)
      ((contrEquiv1 dot_S1024x256_S256x256_S1024x256_1_0_0_1_n_n 256 rfl rfl).symm k) = ix2 p k := by
    funext ax; apply Fin.ext
    match ax with
    | ⟨0, _⟩ => exact lhs_dot_0 _ _
    | ⟨1, _⟩ => exact (lhs_dot_1 _ _).trans hk
  have hr : dot_S1024x256_S256x256_S1024x256_1_0_0_1_n_n.rhsIdx (ix2 p q)
      ((contrEquiv1 dot_S1024x256_S256x256_S1024x256_1_0_0_1_n_n 256 rfl rfl).symm k) = ix2 k q := by
    funext ax; apply Fin.ext
    match ax with
    | ⟨0, _⟩ => exact (rhs_dot_0 _ _).trans hk
    | ⟨1, _⟩ => exact rhs_dot_1 _ _
  rw [hl, hr]

/-- The lane sum kept as a column: at `(p, u)` the sum over `k` of the entries `(p, k)`. -/
private theorem colSum_apply (v : FVec Ideal S1024x256 .f32) (h : S1024x256.Reduces [1] S1024)
    (hφ : FKind.Formats .f32) (hacc : (0x00000000#32 : BitVec 32) = FKind.add.neutral .f32 hφ)
    (hc : S1024.ShapeCasts S1024x1) (p : Fin 1024) (u : Fin 1) :
    shapeCast S1024x1 (multiReduction (F := Ideal) .add [1] S1024 v 0x00000000#32 h hφ hacc) hc (ix2 p u)
      = ∑ k : Fin 256, v (ix2 p k) :=
  (shapeCast_a_a1_apply _ hc p u).trans (rowSum_apply v h hφ hacc p)

/-! ## The payloads at an index -/

/-- The first half of each token. -/
private theorem pay3_apply (x0 : Vec Ideal S32x2x32x256 .f32) (p : Fin 1024) (k : Fin 256) :
    k0_pay3 (F := Ideal) x0 (ix2 p k) = x0 (xIdx p (lo k)) := by
  unfold k0_pay3 k0_pay2
  refine (plane_apply _ 0 (0 : Fin 2) rfl _ _ _ p k).trans ?_
  exact (congrFun (shapeCast_self x0 _) _).trans (congrArg x0 (xIdx_lo p k).symm)

/-- The second half of each token. -/
private theorem pay4_apply (x0 : Vec Ideal S32x2x32x256 .f32) (p : Fin 1024) (k : Fin 256) :
    k0_pay4 (F := Ideal) x0 (ix2 p k) = x0 (xIdx p (hi k)) := by
  unfold k0_pay4 k0_pay2
  refine (plane_apply _ 1 (1 : Fin 2) rfl _ _ _ p k).trans ?_
  exact (congrFun (shapeCast_self x0 _) _).trans (congrArg x0 (xIdx_hi p k).symm)

/-- The mean of each token. -/
private theorem pay5_apply (x0 : Vec Ideal S32x2x32x256 .f32) (p : Fin 1024) (u : Fin 1) :
    k0_pay5 (F := Ideal) x0 (ix2 p u) = mean cN (fun k => x0 (xIdx p k)) := by
  unfold k0_pay5 mean
  refine congrArg₂ (· * ·) (congrArg₂ (· + ·) ?_ ?_) rfl
  · exact (colSum_apply _ _ _ _ _ p u).trans (Finset.sum_congr rfl fun k _ => pay3_apply x0 p k)
  · exact (colSum_apply _ _ _ _ _ p u).trans (Finset.sum_congr rfl fun k _ => pay4_apply x0 p k)

/-- The first half, centred. -/
private theorem pay6_apply (x0 : Vec Ideal S32x2x32x256 .f32) (p : Fin 1024) (k : Fin 256) :
    k0_pay6 (F := Ideal) x0 (ix2 p k) = x0 (xIdx p (lo k)) - mean cN (fun k => x0 (xIdx p k)) := by
  unfold k0_pay6
  refine congrArg₂ (· - ·) (pay3_apply x0 p k) ?_
  exact (broadcastTo_a1_ab_apply _ _ p k).trans (pay5_apply x0 p 0)

/-- The second half, centred. -/
private theorem pay7_apply (x0 : Vec Ideal S32x2x32x256 .f32) (p : Fin 1024) (k : Fin 256) :
    k0_pay7 (F := Ideal) x0 (ix2 p k) = x0 (xIdx p (hi k)) - mean cN (fun k => x0 (xIdx p k)) := by
  unfold k0_pay7
  refine congrArg₂ (· - ·) (pay4_apply x0 p k) ?_
  exact (broadcastTo_a1_ab_apply _ _ p k).trans (pay5_apply x0 p 0)

/-- The reciprocal standard deviation of each token. -/
private theorem pay8_apply (x0 : Vec Ideal S32x2x32x256 .f32) (p : Fin 1024) (u : Fin 1) :
    k0_pay8 (F := Ideal) x0 (ix2 p u) = rstd cN cE (fun k => x0 (xIdx p k)) := by
  unfold k0_pay8 rstd
  refine congrArg Ideal.rsqrt (congrArg₂ (· + ·) (congrArg₂ (· * ·) (congrArg₂ (· + ·) ?_ ?_) rfl) rfl)
  · exact (colSum_apply _ _ _ _ _ p u).trans
      (Finset.sum_congr rfl fun k _ => congrArg₂ (· * ·) (pay6_apply x0 p k) (pay6_apply x0 p k))
  · exact (colSum_apply _ _ _ _ _ p u).trans
      (Finset.sum_congr rfl fun k _ => congrArg₂ (· * ·) (pay7_apply x0 p k) (pay7_apply x0 p k))

/-- The reciprocal standard deviation, spread over the lanes. -/
private theorem pay12_apply (x0 : Vec Ideal S32x2x32x256 .f32) (p : Fin 1024) (k : Fin 256) :
    k0_pay12 (F := Ideal) x0 (ix2 p k) = rstd cN cE (fun k => x0 (xIdx p k)) := by
  unfold k0_pay12
  exact (broadcastTo_a1_ab_apply _ _ p k).trans (pay8_apply x0 p 0)

/-- The first half, normalised, scaled and shifted. -/
private theorem pay11_apply (x0 : Vec Ideal S32x2x32x256 .f32) (x1 x2 : Vec Ideal S2x256 .f32) (p : Fin 1024) (k : Fin 256) :
    k0_pay11 (F := Ideal) x0 x1 x2 (ix2 p k)
      = (x0 (xIdx p (lo k)) - mean cN (fun k => x0 (xIdx p k))) * rstd cN cE (fun k => x0 (xIdx p k)) * x1 (vIdx (lo k))
        + x2 (vIdx (lo k)) := by
  unfold k0_pay11 k0_pay9 k0_pay10
  refine congrArg₂ (· + ·) (congrArg₂ (· * ·) (congrArg₂ (· * ·) (pay6_apply x0 p k) ?_) ?_) ?_
  · exact (broadcastTo_a1_ab_apply _ _ p k).trans (pay8_apply x0 p 0)
  · refine (rowBroadcast_apply _ 0 (0 : Fin 2) rfl _ _ p k).trans ?_
    exact (congrFun (shapeCast_self x1 _) _).trans (congrArg x1 (vIdx_lo k).symm)
  · refine (rowBroadcast_apply _ 0 (0 : Fin 2) rfl _ _ p k).trans ?_
    exact (congrFun (shapeCast_self x2 _) _).trans (congrArg x2 (vIdx_lo k).symm)

/-- What the body stores at (token p, output channel q) of its block. -/
theorem pay_apply (x0 : Vec Ideal S32x2x32x256 .f32) (x1 x2 : Vec Ideal S2x256 .f32) (x3 : Vec Ideal S2x256x256 .f32)
    (p : Fin 1024) (q : Fin 256) :
    k0_pay1 (F := Ideal) (k0_pay7 x0) (k0_pay9 x1) (k0_pay10 x2) (k0_pay11 x0 x1 x2) (k0_pay12 x0) x3 (ix2 p q)
      = normProj cN cE (fun k => x0 (xIdx p k)) (fun k => x1 (vIdx k)) (fun k => x2 (vIdx k)) (fun k => x3 (wIdx q k)) := by
  unfold k0_pay1 normProj k0_pay9 k0_pay10
  refine congrArg₂ (· + ·) ?_ ?_
  · refine (matmul_zero_apply _ _ p q).trans (Finset.sum_congr rfl fun k _ => congrArg₂ (· * ·) ?_ ?_)
    · exact pay11_apply x0 x1 x2 p k
    · refine (slab_apply _ 0 (0 : Fin 2) rfl _ _ k q).trans ?_
      exact (congrFun (shapeCast_self x3 _) _).trans (congrArg x3 (wIdx_lo q k).symm)
  · refine (matmul_zero_apply _ _ p q).trans (Finset.sum_congr rfl fun k _ => congrArg₂ (· * ·) ?_ ?_)
    · refine congrArg₂ (· + ·) (congrArg₂ (· * ·) (congrArg₂ (· * ·) (pay7_apply x0 p k) (pay12_apply x0 p k)) ?_) ?_
      · refine (rowBroadcast_apply _ 1 (1 : Fin 2) rfl _ _ p k).trans ?_
        exact (congrFun (shapeCast_self x1 _) _).trans (congrArg x1 (vIdx_hi k).symm)
      · refine (rowBroadcast_apply _ 1 (1 : Fin 2) rfl _ _ p k).trans ?_
        exact (congrFun (shapeCast_self x2 _) _).trans (congrArg x2 (vIdx_hi k).symm)
    · refine (slab_apply _ 1 (1 : Fin 2) rfl _ _ k q).trans ?_
      exact (congrFun (shapeCast_self x3 _) _).trans (congrArg x3 (wIdx_hi q k).symm)

end Cert.ReferenceIdeal.Pay

end
-- ==== Proof.RefValue.lean ====
/-
  The reference program's run, read: its result buffer ends at the last reshape of `G` of the arguments.

  The host lines before the region only re-lay the arguments (two reshapes of the token array into row pairs of 32
  column pairs by 256 lanes, γ and β as two rows of 256, the projection transposed and cut in two slabs of 256 rows),
  so every entry a block holds is one entry of an argument (`xblk_apply` … `wblk_apply`).  At grid point `t` the body
  stores, at (token p, channel q) of its block, the normalised projection of the block's token p (Proof/RefPayload.lean),
  which is entry (1024·t + p, q) of `G` (`flushed_eq`); the sixteen blocks tile the [16384, 256] array (`cover`), so the
  region leaves `G` there (`final`), and the one line after the region reshapes it (`tail_eq`, `run`).
-/
import proofs.«177595_g2000604256433566_pallasbulk_677_14_alg».proof.Proof.Gen.ReferenceIdeal.Frame
import proofs.«177595_g2000604256433566_pallasbulk_677_14_alg».proof.Proof.RefPayload
import proofs.«177595_g2000604256433566_pallasbulk_677_14_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.MergeNorm

variable (m : (ℓ : Loc nD τ sig) → Buf (Elt Ideal) ℓ) (ρ : Dev nD → PrngReg)

/-- The token array as launched. -/
abbrev argX (c : Dev nD) : SX.Idx → EReal := m ((c : Thread nD τ).loc main_arg0)
abbrev argG (c : Dev nD) : SV.Idx → EReal := m ((c : Thread nD τ).loc main_arg1)
abbrev argB (c : Dev nD) : SV.Idx → EReal := m ((c : Thread nD τ).loc main_arg2)
abbrev argW (c : Dev nD) : SW.Idx → EReal := m ((c : Thread nD τ).loc main_arg3)

theorem V_v1 (c : Dev nD) : (V m c main_v1 : S512x2x32x256.Idx → EReal)
    = shapeCast S512x2x32x256 (shapeCast S16x64x64x128 (argX m c) Facts₀.shapeCasts_S16x4096x128_S16x64x64x128) Facts₀.shapeCasts_S16x64x64x128_S512x2x32x256 := by
  show StableHlo.after hostOps0 (fun b => m (c, b)) (Proc.devRef .tc main_v1) = _
  after_results
  rfl

theorem V_v2 (c : Dev nD) : (V m c main_v2 : S2x256.Idx → EReal) = shapeCast S2x256 (argG m c) Facts₀.shapeCasts_S512_S2x256 := by
  show StableHlo.after hostOps0 (fun b => m (c, b)) (Proc.devRef .tc main_v2) = _
  after_results
  rfl

theorem V_v3 (c : Dev nD) : (V m c main_v3 : S2x256.Idx → EReal) = shapeCast S2x256 (argB m c) Facts₀.shapeCasts_S512_S2x256 := by
  show StableHlo.after hostOps0 (fun b => m (c, b)) (Proc.devRef .tc main_v3) = _
  after_results
  rfl

theorem V_v5 (c : Dev nD) : (V m c main_v5 : S2x256x256.Idx → EReal)
    = shapeCast S2x256x256 (transpose S512x256 [1, 0] (argW m c) Facts₀.transposes_S256x512_S512x256_1_0) Facts₀.shapeCasts_S512x256_S2x256x256 := by
  show StableHlo.after hostOps0 (fun b => m (c, b)) (Proc.devRef .tc main_v5) = _
  after_results
  rfl

/-- The printed index maps over the grid: the token window and the result window move one block per point along
    their first axis; the other windows stay. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- Entry `k` of token `p` of the token window's block at point `t` is entry `k` of merged token 1024·t + p. -/
theorem xblk_apply (c : Dev nD) (t : Fin cfg0.N) (p : Fin 1024) (k : Fin 512) (n : Fin 16384) (hn : n.val = t.val * 1024 + p.val) :
    (iblk m c 0 t : S32x2x32x256.Idx → EReal) (Pay.xIdx p k) = argX m c (chan n k) := by
  obtain ⟨e0, e1, e2, e3, -⟩ := idx_facts t
  have hp := p.isLt; have hk := k.isLt; have ht : t.val < 16 := t.isLt
  have hemb : ((cfg0.win 0).blk t).view.emb (Pay.xIdx p k)
      = ix4 (⟨t.val * 32 + p.val / 32, by omega⟩ : Fin 512) (⟨k.val / 256, by omega⟩ : Fin 2) (⟨p.val % 32, by omega⟩ : Fin 32) (⟨k.val % 256, by omega⟩ : Fin 256) := by
    funext a; apply Fin.ext
    match a with
    | ⟨0, _⟩ => show win0_0.index t (0 : Fin 4) * 32 + 1 * (p.val / 32) = t.val * 32 + p.val / 32; omega
    | ⟨1, _⟩ => show win0_0.index t (1 : Fin 4) * 2 + 1 * (k.val / 256) = k.val / 256; omega
    | ⟨2, _⟩ => show win0_0.index t (2 : Fin 4) * 32 + 1 * (p.val % 32) = p.val % 32; omega
    | ⟨3, _⟩ => show win0_0.index t (3 : Fin 4) * 256 + 1 * (k.val % 256) = k.val % 256; omega
  unfold iblk
  rw [View.read_apply, hemb]
  show (V m c main_v1 : S512x2x32x256.Idx → EReal) _ = _
  rw [V_v1]
  refine (shapeCast_apply _ _ _ (ix4 (⟨n.val / 1024, by omega⟩ : Fin 16) (⟨n.val % 1024 / 32 * 2 + k.val / 256, by omega⟩ : Fin 64)
    (⟨n.val % 32 * 2 + k.val % 256 / 128, by omega⟩ : Fin 64) (⟨k.val % 128, by omega⟩ : Fin 128)) ?_).trans ?_
  · rw [Shape.rowMajor_val_four, Shape.rowMajor_val_four]
    show ((n.val / 1024 * 64 + (n.val % 1024 / 32 * 2 + k.val / 256)) * 64 + (n.val % 32 * 2 + k.val % 256 / 128)) * 128 + k.val % 128
      = (((t.val * 32 + p.val / 32) * 2 + k.val / 256) * 32 + p.val % 32) * 256 + k.val % 256
    omega
  · refine shapeCast_apply _ _ _ _ ?_
    rw [Shape.rowMajor_val_three, Shape.rowMajor_val_four]
    show (n.val / 1024 * 4096 + ((n.val % 1024 / 32 * 2 + k.val / 256) * 64 + (n.val % 32 * 2 + k.val % 256 / 128))) * 128 + k.val % 128
      = ((n.val / 1024 * 64 + (n.val % 1024 / 32 * 2 + k.val / 256)) * 64 + (n.val % 32 * 2 + k.val % 256 / 128)) * 128 + k.val % 128
    omega

/-- Entry `k` of the scale window's block (two rows of 256) is entry `k` of γ. -/
theorem gblk_apply (c : Dev nD) (t : Fin cfg0.N) (k : Fin 512) :
    (iblk m c 1 t : S2x256.Idx → EReal) (Pay.vIdx k) = argG m c (ix1 k) := by
  obtain ⟨-, -, -, -, e0, e1, -⟩ := idx_facts t
  have hk := k.isLt
  have hemb : ((cfg0.win 1).blk t).view.emb (Pay.vIdx k) = ix2 (⟨k.val / 256, by omega⟩ : Fin 2) (⟨k.val % 256, by omega⟩ : Fin 256) := by
    funext a; apply Fin.ext
    match a with
    | ⟨0, _⟩ => show win0_1.index t (0 : Fin 2) * 2 + 1 * (k.val / 256) = k.val / 256; omega
    | ⟨1, _⟩ => show win0_1.index t (1 : Fin 2) * 256 + 1 * (k.val % 256) = k.val % 256; omega
  unfold iblk
  rw [View.read_apply, hemb]
  show (V m c main_v2 : S2x256.Idx → EReal) _ = _
  rw [V_v2]
  refine shapeCast_apply _ _ _ _ ?_
  rw [Shape.rowMajor_val_one, Shape.rowMajor_val_two]
  show k.val = k.val / 256 * 256 + k.val % 256
  omega

/-- Entry `k` of the shift window's block is entry `k` of β. -/
theorem bblk_apply (c : Dev nD) (t : Fin cfg0.N) (k : Fin 512) :
    (iblk m c 2 t : S2x256.Idx → EReal) (Pay.vIdx k) = argB m c (ix1 k) := by
  obtain ⟨-, -, -, -, -, -, e0, e1, -⟩ := idx_facts t
  have hk := k.isLt
  have hemb : ((cfg0.win 2).blk t).view.emb (Pay.vIdx k) = ix2 (⟨k.val / 256, by omega⟩ : Fin 2) (⟨k.val % 256, by omega⟩ : Fin 256) := by
    funext a; apply Fin.ext
    match a with
    | ⟨0, _⟩ => show win0_2.index t (0 : Fin 2) * 2 + 1 * (k.val / 256) = k.val / 256; omega
    | ⟨1, _⟩ => show win0_2.index t (1 : Fin 2) * 256 + 1 * (k.val % 256) = k.val % 256; omega
  unfold iblk
  rw [View.read_apply, hemb]
  show (V m c main_v3 : S2x256.Idx → EReal) _ = _
  rw [V_v3]
  refine shapeCast_apply _ _ _ _ ?_
  rw [Shape.rowMajor_val_one, Shape.rowMajor_val_two]
  show k.val = k.val / 256 * 256 + k.val % 256
  omega

/-- Entry (slab k / 256, row k % 256, column q) of the transposed, re-laid projection is entry (q, k) of the projection. -/
theorem wblk_apply (c : Dev nD) (t : Fin cfg0.N) (q : Fin 256) (k : Fin 512) :
    (iblk m c 3 t : S2x256x256.Idx → EReal) (Pay.wIdx q k) = argW m c (ix2 q k) := by
  obtain ⟨-, -, -, -, -, -, -, -, e0, e1, e2, -⟩ := idx_facts t
  have hk := k.isLt; have hq := q.isLt
  have hemb : ((cfg0.win 3).blk t).view.emb (Pay.wIdx q k) = ix3 (⟨k.val / 256, by omega⟩ : Fin 2) (⟨k.val % 256, by omega⟩ : Fin 256) q := by
    funext a; apply Fin.ext
    match a with
    | ⟨0, _⟩ => show win0_3.index t (0 : Fin 3) * 2 + 1 * (k.val / 256) = k.val / 256; omega
    | ⟨1, _⟩ => show win0_3.index t (1 : Fin 3) * 256 + 1 * (k.val % 256) = k.val % 256; omega
    | ⟨2, _⟩ => show win0_3.index t (2 : Fin 3) * 256 + 1 * q.val = q.val; omega
  unfold iblk
  rw [View.read_apply, hemb]
  show (V m c main_v5 : S2x256x256.Idx → EReal) _ = _
  rw [V_v5]
  refine (shapeCast_apply _ _ _ (ix2 k q) ?_).trans ?_
  · rw [Shape.rowMajor_val_two, Shape.rowMajor_val_three]
    show k.val * 256 + q.val = (k.val / 256 * 256 + k.val % 256) * 256 + q.val
    omega
  · refine transpose_apply _ _ _ _ (ix2 q k) fun b => ?_
    match b with
    | ⟨0, _⟩ => rfl
    | ⟨1, _⟩ => rfl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The array the region leaves: the normalised projection of every merged token, of the arguments as launched. -/
abbrev result (c : Dev nD) : SO.Idx → EReal := G (argX m c) (argG m c) (argB m c) (argW m c)

/-- WHAT POINT `t` WRITES BACK is block `t` (tokens 1024·t … 1024·t + 1023) of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz2]
  simp only [View.ld_unit_zero (S := S32x2x32x256) hz4, View.ld_unit_zero (S := S2x256) hz2, View.ld_unit_zero (S := S2x256x256) hz3]
  funext j
  obtain ⟨p, q, rfl⟩ : ∃ (p : Fin 1024) (q : Fin 256), j = ix2 p q := ⟨j 0, j 1, eq_ix2 j⟩
  obtain ⟨-, -, -, -, -, -, -, -, -, -, -, e0, e1⟩ := idx_facts t
  have hp := p.isLt; have hq := q.isLt; have ht : t.val < 16 := t.isLt
  have hemb : ((cfg0.win 4).blk t).view.emb (ix2 p q) = ix2 (⟨t.val * 1024 + p.val, by omega⟩ : Fin 16384) q := by
    funext a; apply Fin.ext
    match a with
    | ⟨0, _⟩ => show win0_4.index t (0 : Fin 2) * 1024 + 1 * p.val = t.val * 1024 + p.val; omega
    | ⟨1, _⟩ => show win0_4.index t (1 : Fin 2) * 256 + 1 * q.val = q.val; omega
  rw [View.read_apply, hemb]
  refine (Pay.pay_apply _ _ _ _ p q).trans ?_
  show normProj cN cE _ _ _ _ = normProj cN cE (tok (argX m c) ⟨t.val * 1024 + p.val, by omega⟩) (fun k => argG m c (ix1 k))
    (fun k => argB m c (ix1 k)) (fun k => argW m c (ix2 q k))
  exact congr (congr (congr (congrArg (normProj cN cE) (funext fun k => xblk_apply m c t p k _ rfl))
    (funext fun k => gblk_apply m c t k)) (funext fun k => bblk_apply m c t k)) (funext fun k => wblk_apply m c t q k)

/-- Every entry of the array lies in the block of the point that holds its token. -/
theorem cover (c : Dev nD) (i : SO.Idx) :
    ∃ t : Fin cfg0.N, (cfg0.win 4).flush t = true ∧ i ∈ ((cfg0.win 4).blk t).view.set := by
  have h0 : (i 0).val < 16384 := (i 0).isLt
  have h1 : (i 1).val < 256 := (i 1).isLt
  let t : Fin cfg0.N := ⟨(i 0).val / 1024, by rw [show cfg0.N = 16 from N_0]; omega⟩
  obtain ⟨-, -, -, -, -, -, -, -, -, -, -, e0, e1⟩ := idx_facts t
  have et : t.val = (i 0).val / 1024 := rfl
  refine ⟨t, flush0_4 t, ?_⟩
  show i ∈ ((View.whole main_v6).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- So the region leaves `result` in its output array. -/
theorem final (c : Dev nD) : (dats m 0 c).arrAt 4 cfg0.N = result m c :=
  (dats m 0 c).arrAt_eq_of_cover 4 (result m c) (fun t _ => flushed_eq m c t) (cover c)

/-- The last reshape, [16384, 256] to [16, 1024, 256], of an array. -/
def tail (a : SO.Idx → EReal) : S16x1024x256.Idx → EReal := shapeCast S16x1024x256 a Facts₀.shapeCasts_S16384x256_S16x1024x256

/-- What @main's last line leaves in the result buffer: the reshape of `result`. -/
theorem tail_eq (c : Dev nD) :
    Pipeline.afterTail₀ cfgs (dats m) 0 (V0 m) [hostOps1] c main_v7 = tail (result m c) := by
  unfold Pipeline.afterTail₀
  show StableHlo.after hostOps1 _ (Proc.devRef .tc main_v7) = _
  after_results
  show shapeCast S16x1024x256 _ _ = _
  unfold tail
  congr 1
  exact (Pipeline.withArrays_arr spec0 launch0.win.arr_inj c _ _ 4).trans (final m c)

/-- THE RUN, READ: every weakly fair execution ends with the result buffer at the reshape of `result` and the arguments
    as launched. -/
theorem run : θ_run defs (onTc (τ := τ) (main (F := Ideal))) ⟨m, fun _ => 0, ρ⟩ fun r => ∀ c : Dev nD,
      r.2.mem ((c.tc : Thread nD τ).loc main_v7) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v7 (Pipeline.mem_restRefs_of main_v7 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.ReferenceIdeal.Hand

end
-- ==== Proof.Consts.lean ====
/-
  The float constants the two programs spell, as the extended reals their patterns denote.
-/
import Idealize.ShloMosaic.PureOps.Ideal
import proofs.«177595_g2000604256433566_pallasbulk_677_14_alg».proof.Proof.Spec

noncomputable section

namespace Cert.MergeNorm

open Idealize.ShloMosaic

/-- The pattern 0x3B000000 is 2⁻⁹ = 1/512. -/
theorem cN_eq : cN = ((1 / 512 : ℝ) : EReal) := by
  unfold cN
  simp [Ideal.ofBits, Ideal.ieee, -EReal.coe_mul]; norm_num

/-- The pattern 0x3727C5AC is a positive real. -/
theorem cE_pos : ∃ e : ℝ, 0 < e ∧ cE = (e : EReal) := by
  refine ⟨(((2 ^ 23 + 0x27C5AC : ℕ) : ℝ) * (2 : ℝ) ^ ((110 : ℤ) - 127 - 23)), by positivity, ?_⟩
  unfold cE
  simp [Ideal.ofBits, Ideal.ieee, -EReal.coe_mul]

/-- The bf16 pattern 0x3F80 is 1. -/
theorem one_bf16 : Ideal.ofBits .bf16 0x3F80#16 = 1 := by
  simp [Ideal.ofBits, Ideal.ieee, -EReal.coe_mul]; norm_num

end Cert.MergeNorm

end
-- ==== Proof.KerPayload.lean ====
/-
  The kernel's stored value at one entry of its output block, as the folded projection of the block's rows.
-/
import proofs.«177595_g2000604256433566_pallasbulk_677_14_alg».proof.Proof.Gen.KernelIdeal.Skeleton
import proofs.«177595_g2000604256433566_pallasbulk_677_14_alg».proof.Proof.Spec
import proofs.«177595_g2000604256433566_pallasbulk_677_14_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.MergeNorm

/-- Entry `k` of the block's token `p` = (row pair p / 32, column pair p % 32): plane k / 256, image column
    2 · (p % 32) + (k % 256) / 128, channel k % 128. -/
def xIdx (p : Fin 2048) (k : Fin 512) : S64x2x64x128.Idx :=
  ix4 (⟨p.val / 32, by have := p.isLt; omega⟩ : Fin 64) (⟨k.val / 256, by have := k.isLt; omega⟩ : Fin 2)
    (⟨p.val % 32 * 2 + k.val % 256 / 128, by omega⟩ : Fin 64) (⟨k.val % 128, by omega⟩ : Fin 128)

/-! ## The three matrix products read at an index -/

/-- A one-row matrix against the rows of a 2048 × 256 matrix: entry (0, p) is the sum over the 256 columns. -/
private theorem mmA_apply (A : FVec Ideal S1x256 .bf16) (B : FVec Ideal S2048x256 .bf16) (p : Fin 2048) :
    matmul dot_S1x256_S2048x256_S1x2048_1_1_0_0_n_n none A B (constant (F := Ideal) S1x2048 .f32 0x00000000#32) (ix2 (0 : Fin 1) p)
      = ∑ k : Fin 256, A (ix2 (0 : Fin 1) k) * B (ix2 p k) := by
  show FloatOps.matmul _ none A B _ _ = _
  rw [Ideal.matmul_constant_zero_apply, ← Equiv.sum_comp (contrEquiv1 dot_S1x256_S2048x256_S1x2048_1_1_0_0_n_n 256 rfl rfl).symm]
  refine Finset.sum_congr rfl fun c _ => ?_
  have c2 := contrEquiv1_symm_val dot_S1x256_S2048x256_S1x2048_1_1_0_0_n_n 256 rfl rfl c
  have l2 : dot_S1x256_S2048x256_S1x2048_1_1_0_0_n_n.lhsIdx (ix2 (0 : Fin 1) p) ((contrEquiv1 _ 256 rfl rfl).symm c) = ix2 (0 : Fin 1) c := by
    funext ax; apply Fin.ext
    match ax with
    | ⟨0, _⟩ => simp [DotDims.lhsIdx, dot_S1x256_S2048x256_S1x2048_1_1_0_0_n_n]
    | ⟨1, _⟩ => simp [DotDims.lhsIdx, dot_S1x256_S2048x256_S1x2048_1_1_0_0_n_n]; exact c2
  have r2 : dot_S1x256_S2048x256_S1x2048_1_1_0_0_n_n.rhsIdx (ix2 (0 : Fin 1) p) ((contrEquiv1 _ 256 rfl rfl).symm c) = ix2 p c := by
    funext ax; apply Fin.ext
    match ax with
    | ⟨0, _⟩ => simp [DotDims.rhsIdx, dot_S1x256_S2048x256_S1x2048_1_1_0_0_n_n]; rfl
    | ⟨1, _⟩ => simp [DotDims.rhsIdx, dot_S1x256_S2048x256_S1x2048_1_1_0_0_n_n]; exact c2
  rw [l2, r2]

/-- A one-row matrix against the rows of a 256 × 512 matrix: entry (0, q) is the sum over the 512 columns. -/
private theorem mmB_apply (A : FVec Ideal S1x512 .bf16) (B : FVec Ideal S256x512 .bf16) (q : Fin 256) :
    matmul dot_S1x512_S256x512_S1x256_1_1_0_0_n_n none A B (constant (F := Ideal) S1x256 .f32 0x00000000#32) (ix2 (0 : Fin 1) q)
      = ∑ k : Fin 512, A (ix2 (0 : Fin 1) k) * B (ix2 q k) := by
  show FloatOps.matmul _ none A B _ _ = _
  rw [Ideal.matmul_constant_zero_apply, ← Equiv.sum_comp (contrEquiv1 dot_S1x512_S256x512_S1x256_1_1_0_0_n_n 512 rfl rfl).symm]
  refine Finset.sum_congr rfl fun c _ => ?_
  have c2 := contrEquiv1_symm_val dot_S1x512_S256x512_S1x256_1_1_0_0_n_n 512 rfl rfl c
  have l2 : dot_S1x512_S256x512_S1x256_1_1_0_0_n_n.lhsIdx (ix2 (0 : Fin 1) q) ((contrEquiv1 _ 512 rfl rfl).symm c) = ix2 (0 : Fin 1) c := by
    funext ax; apply Fin.ext
    match ax with
    | ⟨0, _⟩ => simp [DotDims.lhsIdx, dot_S1x512_S256x512_S1x256_1_1_0_0_n_n]
    | ⟨1, _⟩ => simp [DotDims.lhsIdx, dot_S1x512_S256x512_S1x256_1_1_0_0_n_n]; exact c2
  have r2 : dot_S1x512_S256x512_S1x256_1_1_0_0_n_n.rhsIdx (ix2 (0 : Fin 1) q) ((contrEquiv1 _ 512 rfl rfl).symm c) = ix2 q c := by
    funext ax; apply Fin.ext
    match ax with
    | ⟨0, _⟩ => simp [DotDims.rhsIdx, dot_S1x512_S256x512_S1x256_1_1_0_0_n_n]; rfl
    | ⟨1, _⟩ => simp [DotDims.rhsIdx, dot_S1x512_S256x512_S1x256_1_1_0_0_n_n]; exact c2
  rw [l2, r2]

/-- Rows against rows over 128 columns: entry (p, q) is the sum over the columns of the products. -/
private theorem mmC_apply (A : FVec Ideal S2048x128 .bf16) (B : FVec Ideal S256x128 .bf16) (p : Fin 2048) (q : Fin 256) :
    matmul dot_S2048x128_S256x128_S2048x256_1_1_0_0_n_n none A B (constant (F := Ideal) S2048x256 .f32 0x00000000#32) (ix2 p q)
      = ∑ k : Fin 128, A (ix2 p k) * B (ix2 q k) := by
  show FloatOps.matmul _ none A B _ _ = _
  rw [Ideal.matmul_constant_zero_apply, ← Equiv.sum_comp (contrEquiv1 dot_S2048x128_S256x128_S2048x256_1_1_0_0_n_n 128 rfl rfl).symm]
  refine Finset.sum_congr rfl fun c _ => ?_
  have c2 := contrEquiv1_symm_val dot_S2048x128_S256x128_S2048x256_1_1_0_0_n_n 128 rfl rfl c
  have l2 : dot_S2048x128_S256x128_S2048x256_1_1_0_0_n_n.lhsIdx (ix2 p q) ((contrEquiv1 _ 128 rfl rfl).symm c) = ix2 p c := by
    funext ax; apply Fin.ext
    match ax with
    | ⟨0, _⟩ => simp [DotDims.lhsIdx, dot_S2048x128_S256x128_S2048x256_1_1_0_0_n_n]; rfl
    | ⟨1, _⟩ => simp [DotDims.lhsIdx, dot_S2048x128_S256x128_S2048x256_1_1_0_0_n_n]; exact c2
  have r2 : dot_S2048x128_S256x128_S2048x256_1_1_0_0_n_n.rhsIdx (ix2 p q) ((contrEquiv1 _ 128 rfl rfl).symm c) = ix2 q c := by
    funext ax; apply Fin.ext
    match ax with
    | ⟨0, _⟩ => simp [DotDims.rhsIdx, dot_S2048x128_S256x128_S2048x256_1_1_0_0_n_n]; rfl
    | ⟨1, _⟩ => simp [DotDims.rhsIdx, dot_S2048x128_S256x128_S2048x256_1_1_0_0_n_n]; exact c2
  rw [l2, r2]

/-! ## Layout -/

/-- A column broadcast along the rows: entry (p, c) is the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first half of token p, as the body lays it out: entry l of row p of the 2048 × 256 matrix cut from plane 0. -/
private theorem pay3_apply (x0 : Vec Ideal S64x2x64x128 .f32) (p : Fin 2048) (l : Fin 256) :
    k0_pay3 (F := Ideal) x0 (ix2 p l) = x0 (xIdx p (lo l)) := by
  have hp := p.isLt
  have hl := l.isLt
  unfold k0_pay3 k0_pay2
  refine (shapeCast_apply _ _ (ix2 p l)
    (ix3 (⟨p.val / 32, by omega⟩ : Fin 64) (⟨p.val % 32 * 2 + l.val / 128, by omega⟩ : Fin 64) (⟨l.val % 128, by omega⟩ : Fin 128)) ?_).trans ?_
  · rw [Shape.rowMajor_val_three, Shape.rowMajor_val_two]
    show (p.val / 32 * 64 + (p.val % 32 * 2 + l.val / 128)) * 128 + l.val % 128 = p.val * 256 + l.val
    omega
  refine (truncf_apply (ψ := .bf16) _ bitsLt_bf16_f32 _).trans ?_
  refine (shapeCast_apply _ _ _
    (ix4 (⟨p.val / 32, by omega⟩ : Fin 64) (0 : Fin 1) (⟨p.val % 32 * 2 + l.val / 128, by omega⟩ : Fin 64) (⟨l.val % 128, by omega⟩ : Fin 128)) ?_).trans ?_
  · rw [Shape.rowMajor_val_four, Shape.rowMajor_val_three]
    show ((p.val / 32 * 1 + 0) * 64 + (p.val % 32 * 2 + l.val / 128)) * 128 + l.val % 128
      = (p.val / 32 * 64 + (p.val % 32 * 2 + l.val / 128)) * 128 + l.val % 128
    omega
  refine (slice4_axis1_apply 0 _ _ _ (0 : Fin 1) _ _ (0 : Fin 2) rfl).trans ?_
  rw [shapeCast_self]
  refine congrArg x0 ?_
  unfold xIdx lo
  funext ax
  match ax with
  | ⟨0, _⟩ => rfl
  | ⟨1, _⟩ => exact Fin.ext (by show 0 = l.val / 256; omega)
  | ⟨2, _⟩ => exact Fin.ext (by show p.val % 32 * 2 + l.val / 128 = p.val % 32 * 2 + l.val % 256 / 128; omega)
  | ⟨3, _⟩ => rfl

/-- The second half of token p: entry l of row p of the 2048 × 256 matrix cut from plane 1. -/
private theorem pay4_apply (x0 : Vec Ideal S64x2x64x128 .f32) (p : Fin 2048) (l : Fin 256) :
    k0_pay4 (F := Ideal) x0 (ix2 p l) = x0 (xIdx p (hi l)) := by
  have hp := p.isLt
  have hl := l.isLt
  unfold k0_pay4 k0_pay2
  refine (shapeCast_apply _ _ (ix2 p l)
    (ix3 (⟨p.val / 32, by omega⟩ : Fin 64) (⟨p.val % 32 * 2 + l.val / 128, by omega⟩ : Fin 64) (⟨l.val % 128, by omega⟩ : Fin 128)) ?_).trans ?_
  · rw [Shape.rowMajor_val_three, Shape.rowMajor_val_two]
    show (p.val / 32 * 64 + (p.val % 32 * 2 + l.val / 128)) * 128 + l.val % 128 = p.val * 256 + l.val
    omega
  refine (truncf_apply (ψ := .bf16) _ bitsLt_bf16_f32 _).trans ?_
  refine (shapeCast_apply _ _ _
    (ix4 (⟨p.val / 32, by omega⟩ : Fin 64) (0 : Fin 1) (⟨p.val % 32 * 2 + l.val / 128, by omega⟩ : Fin 64) (⟨l.val % 128, by omega⟩ : Fin 128)) ?_).trans ?_
  · rw [Shape.rowMajor_val_four, Shape.rowMajor_val_three]
    show ((p.val / 32 * 1 + 0) * 64 + (p.val % 32 * 2 + l.val / 128)) * 128 + l.val % 128
      = (p.val / 32 * 64 + (p.val % 32 * 2 + l.val / 128)) * 128 + l.val % 128
    omega
  refine (slice4_axis1_apply 1 _ _ _ (0 : Fin 1) _ _ (1 : Fin 2) rfl).trans ?_
  rw [shapeCast_self]
  refine congrArg x0 ?_
  unfold xIdx hi
  funext ax
  match ax with
  | ⟨0, _⟩ => rfl
  | ⟨1, _⟩ => exact Fin.ext (by show 1 = (256 + l.val) / 256; omega)
  | ⟨2, _⟩ => exact Fin.ext (by show p.val % 32 * 2 + l.val / 128 = p.val % 32 * 2 + (256 + l.val) % 256 / 128; omega)
  | ⟨3, _⟩ => exact Fin.ext (by show l.val % 128 = (256 + l.val) % 128; omega)

/-! ## The halves cut in quarters -/

private theorem pay3_q0 (x0 : Vec Ideal S64x2x64x128 .f32) (p : Fin 2048) (k : Fin 128) (h : k.val < 256) :
    k0_pay3 (F := Ideal) x0 (ix2 p (⟨k.val, h⟩ : Fin 256)) = x0 (xIdx p (qd 0 k)) :=
  (pay3_apply x0 p _).trans (congrArg (fun j => x0 (xIdx p j)) (Fin.ext (by show k.val = 0 * 128 + k.val; omega)))

private theorem pay3_q1 (x0 : Vec Ideal S64x2x64x128 .f32) (p : Fin 2048) (k : Fin 128) (h : 128 + k.val < 256) :
    k0_pay3 (F := Ideal) x0 (ix2 p (⟨128 + k.val, h⟩ : Fin 256)) = x0 (xIdx p (qd 1 k)) :=
  (pay3_apply x0 p _).trans (congrArg (fun j => x0 (xIdx p j)) (Fin.ext (by show 128 + k.val = 1 * 128 + k.val; omega)))

private theorem pay4_q2 (x0 : Vec Ideal S64x2x64x128 .f32) (p : Fin 2048) (k : Fin 128) (h : k.val < 256) :
    k0_pay4 (F := Ideal) x0 (ix2 p (⟨k.val, h⟩ : Fin 256)) = x0 (xIdx p (qd 2 k)) :=
  (pay4_apply x0 p _).trans (congrArg (fun j => x0 (xIdx p j)) (Fin.ext (by show 256 + k.val = 2 * 128 + k.val; omega)))

private theorem pay4_q3 (x0 : Vec Ideal S64x2x64x128 .f32) (p : Fin 2048) (k : Fin 128) (h : 128 + k.val < 256) :
    k0_pay4 (F := Ideal) x0 (ix2 p (⟨128 + k.val, h⟩ : Fin 256)) = x0 (xIdx p (qd 3 k)) :=
  (pay4_apply x0 p _).trans (congrArg (fun j => x0 (xIdx p j)) (Fin.ext (by show 256 + (128 + k.val) = 3 * 128 + k.val; omega)))

/-! ## Mean and reciprocal deviation of a token -/

/-- The row of ones. -/
private theorem pay5_apply (i : S1x256.Idx) : (k0_pay5 (F := Ideal)) i = 1 := one_bf16

/-- The mean of token p. -/
private theorem pay6_apply (x0 : Vec Ideal S64x2x64x128 .f32) (p : Fin 2048) :
    k0_pay6 (F := Ideal) x0 (ix2 (0 : Fin 1) p) = mean cN (fun k => x0 (xIdx p k)) := by
  unfold k0_pay6 mean
  refine (mulf_apply _ _ _).trans ?_
  refine congrArg₂ (· * ·) ?_ rfl
  refine (addf_apply _ _ _).trans ?_
  refine congrArg₂ (· + ·) ?_ ?_
  · refine (mmA_apply _ _ p).trans ?_
    exact Finset.sum_congr rfl fun k _ => by rw [pay5_apply, one_mul, pay3_apply]
  · refine (mmA_apply _ _ p).trans ?_
    exact Finset.sum_congr rfl fun k _ => by rw [pay5_apply, one_mul, pay4_apply]

/-- The reciprocal deviation of token p. -/
private theorem pay7_apply (x0 : Vec Ideal S64x2x64x128 .f32) (p : Fin 2048) :
    k0_pay7 (F := Ideal) x0 (ix2 (0 : Fin 1) p) = rstdK cN cE (fun k => x0 (xIdx p k)) := by
  unfold k0_pay7 rstdK
  refine congrArg Ideal.rsqrt ?_
  refine (addf_apply _ _ _).trans ?_
  refine congrArg₂ (· + ·) ?_ rfl
  refine (subf_apply _ _ _).trans ?_
  refine congrArg₂ (· - ·) ?_ ?_
  · refine (mulf_apply _ _ _).trans ?_
    refine congrArg₂ (· * ·) ?_ rfl
    refine (addf_apply _ _ _).trans ?_
    refine congrArg₂ (· + ·) ?_ ?_
    · refine (mmA_apply _ _ p).trans ?_
      exact Finset.sum_congr rfl fun k _ => by rw [pay5_apply, one_mul, mulf_apply, pay3_apply]
    · refine (mmA_apply _ _ p).trans ?_
      exact Finset.sum_congr rfl fun k _ => by rw [pay5_apply, one_mul, mulf_apply, pay4_apply]
  · refine (mulf_apply _ _ _).trans ?_
    rw [pay6_apply]

/-- The reciprocal deviations as a column. -/
private theorem pay8_apply (x0 : Vec Ideal S64x2x64x128 .f32) (p : Fin 2048) :
    k0_pay8 (F := Ideal) x0 (ix2 p (0 : Fin 1)) = rstdK cN cE (fun k => x0 (xIdx p k)) := by
  unfold k0_pay8
  exact (transpose_ix2_apply _ _ p (0 : Fin 1)).trans (pay7_apply x0 p)

/-- The reciprocal deviations times the means, as a column. -/
private theorem pay9_apply (x0 : Vec Ideal S64x2x64x128 .f32) (p : Fin 2048) :
    k0_pay9 (F := Ideal) x0 (ix2 p (0 : Fin 1))
      = rstdK cN cE (fun k => x0 (xIdx p k)) * mean cN (fun k => x0 (xIdx p k)) := by
  unfold k0_pay9
  refine (transpose_ix2_apply _ _ p (0 : Fin 1)).trans ?_
  refine (mulf_apply _ _ _).trans ?_
  rw [pay7_apply, pay6_apply]

/-! ## The shift row and the two weight matrices -/

private theorem pay10_apply (x2 : Vec Ideal S1x512 .f32) (i : S1x512.Idx) : k0_pay10 (F := Ideal) x2 i = x2 i := by
  unfold k0_pay10
  rw [shapeCast_self]

private theorem pay11_apply (x3 : Vec Ideal S256x512 .f32) (i : S256x512.Idx) : k0_pay11 (F := Ideal) x3 i = x3 i := rfl

/-- The projection scaled by γ along its rows. -/
private theorem pay12_apply (x1 : Vec Ideal S1x512 .f32) (x3 : Vec Ideal S256x512 .f32) (q : Fin 256) (k : Fin 512) :
    k0_pay12 (F := Ideal) x1 x3 (ix2 q k) = x3 (ix2 q k) * x1 (ix2 (0 : Fin 1) k) := by
  unfold k0_pay12
  refine (truncf_apply (ψ := .bf16) _ bitsLt_bf16_f32 _).trans ?_
  refine (mulf_apply _ _ _).trans ?_
  refine congrArg₂ (· * ·) rfl ?_
  refine (broadcastTo_1b_ab_apply _ _ q k).trans ?_
  rw [shapeCast_self]

/-! ## The stored value over any operands -/

/-- The last stretch of the body at (p, q), over whatever its eight operands are: the four quarter products summed left to
    right, times the first column, less the second column times the row sum of the scaled projection, plus the shift's product. -/
private theorem pay1_gen (v5 v9 : FVec Ideal S2048x256 .bf16) (v29 v30 : FVec Ideal S2048x1 .f32) (v34 : FVec Ideal S1x512 .f32)
    (v36 v39 : FVec Ideal S256x512 .bf16) (c : Ideal .bf16) (hc : c = 1) (p : Fin 2048) (q : Fin 256) :
    k0_pay1 (F := Ideal) v5 v9 v29 v30 v34 v36 v39 c (ix2 p q)
      = ((((∑ k : Fin 128, v5 (ix2 p (⟨k.val, by omega⟩ : Fin 256)) * v39 (ix2 q (⟨k.val, by omega⟩ : Fin 512))
            + ∑ k : Fin 128, v5 (ix2 p (⟨128 + k.val, by omega⟩ : Fin 256)) * v39 (ix2 q (⟨128 + k.val, by omega⟩ : Fin 512)))
            + ∑ k : Fin 128, v9 (ix2 p (⟨k.val, by omega⟩ : Fin 256)) * v39 (ix2 q (⟨256 + k.val, by omega⟩ : Fin 512)))
            + ∑ k : Fin 128, v9 (ix2 p (⟨128 + k.val, by omega⟩ : Fin 256)) * v39 (ix2 q (⟨384 + k.val, by omega⟩ : Fin 512)))
            * v29 (ix2 p (0 : Fin 1))
          - v30 (ix2 p (0 : Fin 1)) * ∑ k : Fin 512, v39 (ix2 q k))
        + ∑ k : Fin 512, v34 (ix2 (0 : Fin 1) k) * v36 (ix2 q k) := by
  unfold k0_pay1
  refine (addf_apply _ _ _).trans ?_
  refine congrArg₂ (· + ·) ?_ ?_
  · refine (subf_apply _ _ _).trans ?_
    refine congrArg₂ (· - ·) ?_ ?_
    · refine (mulf_apply _ _ _).trans ?_
      refine congrArg₂ (· * ·) ?_ (broadcastTo_a1_ab_apply _ _ p q)
      refine (addf_apply _ _ _).trans ?_
      refine congrArg₂ (· + ·) ?_ ?_
      · refine (addf_apply _ _ _).trans ?_
        refine congrArg₂ (· + ·) ?_ ?_
        · refine (addf_apply _ _ _).trans ?_
          refine congrArg₂ (· + ·) ?_ ?_
          · refine (mmC_apply _ _ p q).trans ?_
            exact Finset.sum_congr rfl fun k _ => congrArg₂ (· * ·)
              (slice2_axis1_apply 0 _ _ p k _ (Nat.zero_add _).symm) (slice2_axis1_apply 0 _ _ q k _ (Nat.zero_add _).symm)
          · refine (mmC_apply _ _ p q).trans ?_
            exact Finset.sum_congr rfl fun k _ => congrArg₂ (· * ·)
              (slice2_axis1_apply 128 _ _ p k _ rfl) (slice2_axis1_apply 128 _ _ q k _ rfl)
        · refine (mmC_apply _ _ p q).trans ?_
          exact Finset.sum_congr rfl fun k _ => congrArg₂ (· * ·)
            (slice2_axis1_apply 0 _ _ p k _ (Nat.zero_add _).symm) (slice2_axis1_apply 256 _ _ q k _ rfl)
      · refine (mmC_apply _ _ p q).trans ?_
        exact Finset.sum_congr rfl fun k _ => congrArg₂ (· * ·)
          (slice2_axis1_apply 128 _ _ p k _ rfl) (slice2_axis1_apply 384 _ _ q k _ rfl)
    · refine (mulf_apply _ _ _).trans ?_
      refine congrArg₂ (· * ·) (broadcastTo_a1_ab_apply _ _ p q) ?_
      refine (broadcastTo_1b_ab_apply _ _ p q).trans ?_
      refine (mmB_apply _ _ q).trans ?_
      exact Finset.sum_congr rfl fun k _ => by rw [broadcast_apply, hc, one_mul]
  · refine (broadcastTo_1b_ab_apply _ _ p q).trans ?_
    refine (mmB_apply _ _ q).trans ?_
    exact Finset.sum_congr rfl fun k _ => congrArg₂ (· * ·) (truncf_apply (ψ := .bf16) _ bitsLt_bf16_f32 _) rfl

/-- What the body stores at (token p, output channel q) of its block. -/
theorem pay_apply (x0 : Vec Ideal S64x2x64x128 .f32) (x1 x2 : Vec Ideal S1x512 .f32) (x3 : Vec Ideal S256x512 .f32)
    (p : Fin 2048) (q : Fin 256) :
    k0_pay1 (F := Ideal) (k0_pay3 x0) (k0_pay4 x0) (k0_pay8 x0) (k0_pay9 x0) (k0_pay10 x2) (k0_pay11 x3) (k0_pay12 x1 x3)
        (Scalar.ofBits .bf16 0x3F80#16) (ix2 p q)
      = foldProj cN cE (fun k => x0 (xIdx p k)) (fun k => x1 (ix2 (0 : Fin 1) k)) (fun k => x2 (ix2 (0 : Fin 1) k))
          (fun k => x3 (ix2 q k)) := by
  refine (pay1_gen _ _ _ _ _ _ _ _ one_bf16 p q).trans ?_
  unfold foldProj
  rw [pay8_apply, pay9_apply]
  refine congrArg₂ (· + ·) ?_ ?_
  · refine congrArg₂ (· - ·) ?_ ?_
    · refine congrArg₂ (· * ·) ?_ rfl
      refine congrArg₂ (· + ·) (congrArg₂ (· + ·) (congrArg₂ (· + ·) ?_ ?_) ?_) ?_
      · refine Finset.sum_congr rfl fun k _ => ?_
        have e : (⟨k.val, by omega⟩ : Fin 512) = qd 0 k := Fin.ext (by show k.val = 0 * 128 + k.val; omega)
        rw [pay3_q0, pay12_apply, e]
      · exact Finset.sum_congr rfl fun k _ => by rw [pay3_q1, pay12_apply]; rfl
      · exact Finset.sum_congr rfl fun k _ => by rw [pay4_q2, pay12_apply]; rfl
      · exact Finset.sum_congr rfl fun k _ => by rw [pay4_q3, pay12_apply]; rfl
    · refine congrArg₂ (· * ·) rfl ?_
      exact Finset.sum_congr rfl fun k _ => pay12_apply x1 x3 q k
  · exact Finset.sum_congr rfl fun k _ => by rw [pay10_apply, pay11_apply]

end Cert.KernelIdeal.Pay

end
-- ==== Proof.Algebra.lean ====
/-
  The two arrangements of the normalised projection agree on finite reals.
-/
import proofs.«177595_g2000604256433566_pallasbulk_677_14_alg».proof.Proof.Spec
import proofs.«177595_g2000604256433566_pallasbulk_677_14_alg».proof.Proof.Consts

noncomputable section

namespace Cert.MergeNorm

open Idealize.ShloMosaic

/-! ## Sums of 512 real entries, in halves and in quarters -/

/-- A finite sum of coerced reals is the coercion of the real sum. -/
private theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The 512 entries are the first 256 followed by the last 256. -/
private theorem sum_halves (f : Fin 512 → ℝ) :
    ∑ k : Fin 512, f k = ∑ k : Fin 256, f (lo k) + ∑ k : Fin 256, f (hi k) :=
  Fin.sum_univ_add (a := 256) (b := 256) f

/-- A half of 256 entries is two quarters of 128. -/
private theorem sum_half_quarters (f : Fin 256 → ℝ) :
    ∑ k : Fin 256, f k
      = ∑ k : Fin 128, f (Fin.castAdd 128 k) + ∑ k : Fin 128, f (Fin.natAdd 128 k) :=
  Fin.sum_univ_add (a := 128) (b := 128) f

/-- The 512 entries are the four quarters of 128, in order. -/
private theorem sum_quarters (f : Fin 512 → ℝ) :
    ∑ k : Fin 512, f k
      = ((∑ k : Fin 128, f (qd 0 k) + ∑ k : Fin 128, f (qd 1 k)) + ∑ k : Fin 128, f (qd 2 k))
          + ∑ k : Fin 128, f (qd 3 k) := by
  have h0 : ∀ k : Fin 128, lo (Fin.castAdd 128 k) = qd 0 k := fun k => by
    apply Fin.ext; simp [lo, qd]
  have h1 : ∀ k : Fin 128, lo (Fin.natAdd 128 k) = qd 1 k := fun k => by
    apply Fin.ext; simp [lo, qd]; omega
  have h2 : ∀ k : Fin 128, hi (Fin.castAdd 128 k) = qd 2 k := fun k => by
    apply Fin.ext; simp [hi, qd]
  have h3 : ∀ k : Fin 128, hi (Fin.natAdd 128 k) = qd 3 k := fun k => by
    apply Fin.ext; simp [hi, qd]; omega
  rw [sum_halves, sum_half_quarters (fun k => f (lo k)), sum_half_quarters (fun k => f (hi k))]
  simp only [h0, h1, h2, h3]
  ring

/-! ## The identities over the reals -/

/-- The mean of 512 real entries. -/
private def meanR (x : Fin 512 → ℝ) : ℝ :=
  (∑ k : Fin 256, x (lo k) + ∑ k : Fin 256, x (hi k)) * (1 / 512)

/-- The variance as the mean of the squared centred entries. -/
private def varR (x : Fin 512 → ℝ) : ℝ :=
  (∑ k : Fin 256, (x (lo k) - meanR x) * (x (lo k) - meanR x)
    + ∑ k : Fin 256, (x (hi k) - meanR x) * (x (hi k) - meanR x)) * (1 / 512)

/-- The variance as the mean of squares minus the squared mean. -/
private def varKR (x : Fin 512 → ℝ) : ℝ :=
  (∑ k : Fin 256, x (lo k) * x (lo k) + ∑ k : Fin 256, x (hi k) * x (hi k)) * (1 / 512)
    - meanR x * meanR x

/-- Σ (xₖ − μ)² = Σ xₖ² − 2 μ Σ xₖ + 512 μ². -/
private theorem sum_centred_sq (x : Fin 512 → ℝ) (μ : ℝ) :
    ∑ k : Fin 512, (x k - μ) * (x k - μ)
      = ∑ k : Fin 512, x k * x k - 2 * μ * ∑ k : Fin 512, x k + 512 * (μ * μ) := by
  have h : ∀ k, (x k - μ) * (x k - μ) = x k * x k - 2 * μ * x k + μ * μ := fun k => by ring
  simp only [h, Finset.sum_add_distrib, Finset.sum_sub_distrib, ← Finset.mul_sum, Finset.sum_const,
    Finset.card_univ, Fintype.card_fin, nsmul_eq_mul]
  push_cast
  ring

/-- With μ = (Σ xₖ)/512 the two forms of the variance are the same real. -/
private theorem varKR_eq (x : Fin 512 → ℝ) : varKR x = varR x := by
  have hm : meanR x = (∑ k : Fin 512, x k) * (1 / 512) := by
    unfold meanR; rw [sum_halves]
  unfold varKR varR
  rw [← sum_halves (fun k => x k * x k), ← sum_halves (fun k => (x k - meanR x) * (x k - meanR x)),
    sum_centred_sq, hm]
  ring

/-- The centred variance is not negative. -/
private theorem varR_nonneg (x : Fin 512 → ℝ) : 0 ≤ varR x :=
  mul_nonneg (add_nonneg (Finset.sum_nonneg fun _ _ => mul_self_nonneg _)
    (Finset.sum_nonneg fun _ _ => mul_self_nonneg _)) (by norm_num)

/-- The folded projection and the projection of the normalised vector, over the reals: the four quarter sums
    and the two half sums are both the sum over all 512 entries, and
    Σ ((xₖ − μ) r γₖ + βₖ) ωₖ = r Σ xₖ (ωₖ γₖ) − (r μ) Σ ωₖ γₖ + Σ βₖ ωₖ. -/
private theorem real_identity (x γ β ω : Fin 512 → ℝ) (μ r : ℝ) :
    ((((∑ k : Fin 128, x (qd 0 k) * (ω (qd 0 k) * γ (qd 0 k))
        + ∑ k : Fin 128, x (qd 1 k) * (ω (qd 1 k) * γ (qd 1 k)))
        + ∑ k : Fin 128, x (qd 2 k) * (ω (qd 2 k) * γ (qd 2 k)))
        + ∑ k : Fin 128, x (qd 3 k) * (ω (qd 3 k) * γ (qd 3 k))) * r
      - (r * μ) * (∑ k : Fin 512, ω k * γ k))
    + ∑ k : Fin 512, β k * ω k
    = ∑ k : Fin 256, ((x (lo k) - μ) * r * γ (lo k) + β (lo k)) * ω (lo k)
      + ∑ k : Fin 256, ((x (hi k) - μ) * r * γ (hi k) + β (hi k)) * ω (hi k) := by
  rw [← sum_quarters (fun k => x k * (ω k * γ k)),
    ← sum_halves (fun k => ((x k - μ) * r * γ k + β k) * ω k)]
  rw [Finset.sum_mul, Finset.mul_sum, ← Finset.sum_sub_distrib, ← Finset.sum_add_distrib]
  exact Finset.sum_congr rfl fun k _ => by ring

/-! ## From the extended reals to the reals -/

/-- On a positive real the reciprocal root is the real one. -/
private theorem rsqrt_coe_pos {v : ℝ} (hv : 0 < v) :
    Ideal.rsqrt (v : EReal) = (((Real.sqrt v)⁻¹ : ℝ) : EReal) := by
  rw [Ideal.rsqrt_coe, if_neg (not_lt.mpr hv.le), if_neg hv.ne']

/-- The mean of a real token is real. -/
private theorem mean_coe (x : Fin 512 → ℝ) :
    mean cN (fun k => (x k : EReal)) = ((meanR x : ℝ) : EReal) := by
  simp only [mean, meanR, cN_eq, EReal.coe_mul, EReal.coe_add, coe_sum]

/-- The centred variance plus the offset, of a real token, is real. -/
private theorem rstd_arg_coe (x : Fin 512 → ℝ) (e : ℝ) :
    (∑ k : Fin 256, ((x (lo k) : EReal) - mean cN (fun k => (x k : EReal)))
          * ((x (lo k) : EReal) - mean cN (fun k => (x k : EReal)))
      + ∑ k : Fin 256, ((x (hi k) : EReal) - mean cN (fun k => (x k : EReal)))
          * ((x (hi k) : EReal) - mean cN (fun k => (x k : EReal)))) * cN + (e : EReal)
      = ((varR x + e : ℝ) : EReal) := by
  rw [mean_coe]
  simp only [varR, cN_eq, EReal.coe_mul, EReal.coe_add, EReal.coe_sub, coe_sum]

/-- The mean of squares minus the squared mean plus the offset, of a real token, is real. -/
private theorem rstdK_arg_coe (x : Fin 512 → ℝ) (e : ℝ) :
    ((∑ k : Fin 256, (x (lo k) : EReal) * (x (lo k) : EReal)
        + ∑ k : Fin 256, (x (hi k) : EReal) * (x (hi k) : EReal)) * cN
      - mean cN (fun k => (x k : EReal)) * mean cN (fun k => (x k : EReal))) + (e : EReal)
      = ((varKR x + e : ℝ) : EReal) := by
  rw [mean_coe]
  simp only [varKR, cN_eq, EReal.coe_mul, EReal.coe_add, EReal.coe_sub, coe_sum]

/-- On tokens, scales, shifts and projection rows that are finite reals, folding the affine map through the
    projection changes nothing. -/
theorem foldProj_eq_normProj (X g b w : Fin 512 → EReal)
    (hX : ∀ k, ∃ r : ℝ, X k = (r : EReal)) (hg : ∀ k, ∃ r : ℝ, g k = (r : EReal))
    (hb : ∀ k, ∃ r : ℝ, b k = (r : EReal)) (hw : ∀ k, ∃ r : ℝ, w k = (r : EReal)) :
    foldProj cN cE X g b w = normProj cN cE X g b w := by
  choose x hx using hX
  choose γ hγ using hg
  choose β hβ using hb
  choose ω hω using hw
  obtain rfl : X = fun k => (x k : EReal) := funext hx
  obtain rfl : g = fun k => (γ k : EReal) := funext hγ
  obtain rfl : b = fun k => (β k : EReal) := funext hβ
  obtain rfl : w = fun k => (ω k : EReal) := funext hω
  obtain ⟨e, he, hE⟩ := cE_pos
  have hv : 0 < varR x + e := add_pos_of_nonneg_of_pos (varR_nonneg x) he
  have hr : rstd cN cE (fun k => (x k : EReal)) = (((Real.sqrt (varR x + e))⁻¹ : ℝ) : EReal) := by
    unfold rstd
    rw [hE, rstd_arg_coe, rsqrt_coe_pos hv]
  have hrK : rstdK cN cE (fun k => (x k : EReal)) = (((Real.sqrt (varR x + e))⁻¹ : ℝ) : EReal) := by
    unfold rstdK
    rw [hE, rstdK_arg_coe, varKR_eq, rsqrt_coe_pos hv]
  have key := congrArg (fun t : ℝ => (t : EReal))
    (real_identity x γ β ω (meanR x) (Real.sqrt (varR x + e))⁻¹)
  simp only [EReal.coe_mul, EReal.coe_add, EReal.coe_sub, coe_sum] at key
  simp only [foldProj, normProj, hr, hrK, mean_coe]
  exact key

end Cert.MergeNorm

end
-- ==== Proof.KerValue.lean ====
/-
  The kernel program's run, read: on finite arguments its result buffer ends at the last reshape of `G` of the arguments.

  The host lines before the region only re-lay the arguments (the token array as 512 row pairs of two image rows of 64
  columns by 128 channels, γ and β as one row of 512), so every entry a block holds is one entry of an argument
  (`xblk_apply` … `wblk_apply`).  At grid point `t` the body stores, at (token p, channel q) of its block, the folded
  projection of the block's token p (Proof/KerPayload.lean); on finite reals that is the normalised projection
  (Proof/Algebra.lean), entry (2048·t + p, q) of `G` (`flushed_eq`); the eight blocks tile the [16384, 256] array
  (`cover`), so the region leaves `G` there (`final`), and the one line after the region reshapes it (`tail_eq`, `run`).
-/
import proofs.«177595_g2000604256433566_pallasbulk_677_14_alg».proof.Proof.Gen.KernelIdeal.Frame
import proofs.«177595_g2000604256433566_pallasbulk_677_14_alg».proof.Proof.KerPayload
import proofs.«177595_g2000604256433566_pallasbulk_677_14_alg».proof.Proof.Spec
import proofs.«177595_g2000604256433566_pallasbulk_677_14_alg».proof.Proof.Algebra
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MergeNorm

variable (m : (ℓ : Loc nD τ sig) → Buf (Elt Ideal) ℓ) (ρ : Dev nD → PrngReg)

/-- The arguments as launched. -/
abbrev argX (c : Dev nD) : SX.Idx → EReal := m ((c : Thread nD τ).loc main_arg0)
abbrev argG (c : Dev nD) : SV.Idx → EReal := m ((c : Thread nD τ).loc main_arg1)
abbrev argB (c : Dev nD) : SV.Idx → EReal := m ((c : Thread nD τ).loc main_arg2)
abbrev argW (c : Dev nD) : SW.Idx → EReal := m ((c : Thread nD τ).loc main_arg3)

/-- Every entry of the four arguments is a finite real. -/
def RealArgs (c : Dev nD) : Prop :=
  (∀ i, ∃ r : ℝ, argX m c i = (r : EReal)) ∧ (∀ i, ∃ r : ℝ, argG m c i = (r : EReal))
    ∧ (∀ i, ∃ r : ℝ, argB m c i = (r : EReal)) ∧ (∀ i, ∃ r : ℝ, argW m c i = (r : EReal))

theorem V_v0 (c : Dev nD) : (V m c main_v0 : S512x2x64x128.Idx → EReal)
    = shapeCast S512x2x64x128 (argX m c) Facts₀.shapeCasts_S16x4096x128_S512x2x64x128 := by
  show StableHlo.after hostOps0 (fun b => m (c, b)) (Proc.devRef .tc main_v0) = _
  after_results
  rfl

theorem V_v1 (c : Dev nD) : (V m c main_v1 : S1x512.Idx → EReal) = shapeCast S1x512 (argG m c) Facts₀.shapeCasts_S512_S1x512 := by
  show StableHlo.after hostOps0 (fun b => m (c, b)) (Proc.devRef .tc main_v1) = _
  after_results
  rfl

theorem V_v2 (c : Dev nD) : (V m c main_v2 : S1x512.Idx → EReal) = shapeCast S1x512 (argB m c) Facts₀.shapeCasts_S512_S1x512 := by
  show StableHlo.after hostOps0 (fun b => m (c, b)) (Proc.devRef .tc main_v2) = _
  after_results
  rfl

/-- The printed index maps over the grid: the token window and the result window move one block per point along
    their first axis; the other windows stay. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `k` of token `p` of the token window's block at point `t` is entry `k` of merged token 2048·t + p. -/
theorem xblk_apply (c : Dev nD) (t : Fin cfg0.N) (p : Fin 2048) (k : Fin 512) (n : Fin 16384) (hn : n.val = t.val * 2048 + p.val) :
    (iblk m c 0 t : S64x2x64x128.Idx → EReal) (Pay.xIdx p k) = argX m c (chan n k) := by
  obtain ⟨e0, e1, e2, e3, -⟩ := idx_facts t
  have hp := p.isLt; have hk := k.isLt; have ht : t.val < 8 := t.isLt
  have hemb : ((cfg0.win 0).blk t).view.emb (Pay.xIdx p k)
      = ix4 (⟨t.val * 64 + p.val / 32, by omega⟩ : Fin 512) (⟨k.val / 256, by omega⟩ : Fin 2)
          (⟨p.val % 32 * 2 + k.val % 256 / 128, by omega⟩ : Fin 64) (⟨k.val % 128, by omega⟩ : Fin 128) := by
    funext a; apply Fin.ext
    match a with
    | ⟨0, _⟩ => show win0_0.index t (0 : Fin 4) * 64 + 1 * (p.val / 32) = t.val * 64 + p.val / 32; omega
    | ⟨1, _⟩ => show win0_0.index t (1 : Fin 4) * 2 + 1 * (k.val / 256) = k.val / 256; omega
    | ⟨2, _⟩ => show win0_0.index t (2 : Fin 4) * 64 + 1 * (p.val % 32 * 2 + k.val % 256 / 128) = p.val % 32 * 2 + k.val % 256 / 128; omega
    | ⟨3, _⟩ => show win0_0.index t (3 : Fin 4) * 128 + 1 * (k.val % 128) = k.val % 128; omega
  unfold iblk
  rw [View.read_apply, hemb]
  show (V m c main_v0 : S512x2x64x128.Idx → EReal) _ = _
  rw [V_v0]
  refine shapeCast_apply _ _ _ _ ?_
  rw [Shape.rowMajor_val_three, Shape.rowMajor_val_four]
  show (n.val / 1024 * 4096 + ((n.val % 1024 / 32 * 2 + k.val / 256) * 64 + (n.val % 32 * 2 + k.val % 256 / 128))) * 128 + k.val % 128
    = (((t.val * 64 + p.val / 32) * 2 + k.val / 256) * 64 + (p.val % 32 * 2 + k.val % 256 / 128)) * 128 + k.val % 128
  omega

/-- Entry `k` of the scale window's block (one row of 512) is entry `k` of γ. -/
theorem gblk_apply (c : Dev nD) (t : Fin cfg0.N) (k : Fin 512) :
    (iblk m c 1 t : S1x512.Idx → EReal) (ix2 (0 : Fin 1) k) = argG m c (ix1 k) := by
  obtain ⟨-, -, -, -, e0, e1, -⟩ := idx_facts t
  have hk := k.isLt
  have hemb : ((cfg0.win 1).blk t).view.emb (ix2 (0 : Fin 1) k) = ix2 (0 : Fin 1) k := by
    funext a; apply Fin.ext
    match a with
    | ⟨0, _⟩ => show win0_1.index t (0 : Fin 2) * 1 + 1 * 0 = 0; omega
    | ⟨1, _⟩ => show win0_1.index t (1 : Fin 2) * 512 + 1 * k.val = k.val; omega
  unfold iblk
  rw [View.read_apply, hemb]
  show (V m c main_v1 : S1x512.Idx → EReal) _ = _
  rw [V_v1]
  refine shapeCast_apply _ _ _ _ ?_
  rw [Shape.rowMajor_val_one, Shape.rowMajor_val_two]
  show k.val = 0 * 512 + k.val
  omega

/-- Entry `k` of the shift window's block is entry `k` of β. -/
theorem bblk_apply (c : Dev nD) (t : Fin cfg0.N) (k : Fin 512) :
    (iblk m c 2 t : S1x512.Idx → EReal) (ix2 (0 : Fin 1) k) = argB m c (ix1 k) := by
  obtain ⟨-, -, -, -, -, -, e0, e1, -⟩ := idx_facts t
  have hk := k.isLt
  have hemb : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 512 + 1 * k.val = k.val; omega
  unfold iblk
  rw [View.read_apply, hemb]
  show (V m c main_v2 : S1x512.Idx → EReal) _ = _
  rw [V_v2]
  refine shapeCast_apply _ _ _ _ ?_
  rw [Shape.rowMajor_val_one, Shape.rowMajor_val_two]
  show k.val = 0 * 512 + k.val
  omega

/-- The projection window's one block is the projection. -/
theorem wblk_apply (c : Dev nD) (t : Fin cfg0.N) (q : Fin 256) (k : Fin 512) :
    (iblk m c 3 t : S256x512.Idx → EReal) (ix2 q k) = argW m c (ix2 q k) := by
  obtain ⟨-, -, -, -, -, -, -, -, e0, e1, -⟩ := idx_facts t
  have hk := k.isLt; have hq := q.isLt
  have hemb : ((cfg0.win 3).blk t).view.emb (ix2 q k) = ix2 q k := by
    funext a; apply Fin.ext
    match a with
    | ⟨0, _⟩ => show win0_3.index t (0 : Fin 2) * 256 + 1 * q.val = q.val; omega
    | ⟨1, _⟩ => show win0_3.index t (1 : Fin 2) * 512 + 1 * k.val = k.val; omega
  unfold iblk
  rw [View.read_apply, hemb]
  show (V m c main_arg3 : S256x512.Idx → EReal) _ = _
  rw [V_main_arg3]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The array the region leaves: the normalised projection of every merged token, of the arguments as launched. -/
abbrev result (c : Dev nD) : SO.Idx → EReal := G (argX m c) (argG m c) (argB m c) (argW m c)

/-- WHAT POINT `t` WRITES BACK is block `t` (tokens 2048·t … 2048·t + 2047) of `result`, the arguments finite. -/
theorem flushed_eq (c : Dev nD) (hR : RealArgs m c) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz2]
  simp only [View.ld_unit_zero (S := S64x2x64x128) hz4, View.ld_unit_zero (S := S1x512) hz2, View.ld_unit_zero (S := S256x512) hz2]
  funext j
  obtain ⟨p, q, rfl⟩ : ∃ (p : Fin 2048) (q : Fin 256), j = ix2 p q := ⟨j 0, j 1, eq_ix2 j⟩
  obtain ⟨-, -, -, -, -, -, -, -, -, -, e0, e1⟩ := idx_facts t
  have hp := p.isLt; have hq := q.isLt; have ht : t.val < 8 := t.isLt
  have hemb : ((cfg0.win 4).blk t).view.emb (ix2 p q) = ix2 (⟨t.val * 2048 + p.val, by omega⟩ : Fin 16384) q := by
    funext a; apply Fin.ext
    match a with
    | ⟨0, _⟩ => show win0_4.index t (0 : Fin 2) * 2048 + 1 * p.val = t.val * 2048 + p.val; omega
    | ⟨1, _⟩ => show win0_4.index t (1 : Fin 2) * 256 + 1 * q.val = q.val; omega
  rw [View.read_apply, hemb]
  refine (Pay.pay_apply _ _ _ _ p q).trans ?_
  obtain ⟨rX, rG, rB, rW⟩ := hR
  have hfold : foldProj cN cE (tok (argX m c) ⟨t.val * 2048 + p.val, by omega⟩) (fun k => argG m c (ix1 k))
      (fun k => argB m c (ix1 k)) (fun k => argW m c (ix2 q k))
      = normProj cN cE (tok (argX m c) ⟨t.val * 2048 + p.val, by omega⟩) (fun k => argG m c (ix1 k))
        (fun k => argB m c (ix1 k)) (fun k => argW m c (ix2 q k)) :=
    foldProj_eq_normProj _ _ _ _ (fun k => rX _) (fun k => rG _) (fun k => rB _) (fun k => rW _)
  refine Eq.trans ?_ hfold
  exact congr (congr (congr (congrArg (foldProj cN cE) (funext fun k => xblk_apply m c t p k _ rfl))
    (funext fun k => gblk_apply m c t k)) (funext fun k => bblk_apply m c t k)) (funext fun k => wblk_apply m c t q k)

/-- Every entry of the array lies in the block of the point that holds its token. -/
theorem cover (c : Dev nD) (i : SO.Idx) :
    ∃ t : Fin cfg0.N, (cfg0.win 4).flush t = true ∧ i ∈ ((cfg0.win 4).blk t).view.set := by
  have h0 : (i 0).val < 16384 := (i 0).isLt
  have h1 : (i 1).val < 256 := (i 1).isLt
  let t : Fin cfg0.N := ⟨(i 0).val / 2048, by rw [show cfg0.N = 8 from N_0]; omega⟩
  obtain ⟨-, -, -, -, -, -, -, -, -, -, e0, e1⟩ := idx_facts t
  have et : t.val = (i 0).val / 2048 := rfl
  refine ⟨t, flush0_4 t, ?_⟩
  show i ∈ ((View.whole main_v3).slice (win0_4.rect t)).set
  rw [View.set_slice_whole, Rect.mem_set_unit]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- So the region leaves `result` in its output array. -/
theorem final (c : Dev nD) (hR : RealArgs m c) : (dats m 0 c).arrAt 4 cfg0.N = result m c :=
  (dats m 0 c).arrAt_eq_of_cover 4 (result m c) (fun t _ => flushed_eq m c hR t) (cover c)

/-- The last reshape, [16384, 256] to [16, 1024, 256], of an array. -/
def tail (a : SO.Idx → EReal) : S16x1024x256.Idx → EReal := shapeCast S16x1024x256 a Facts₀.shapeCasts_S16384x256_S16x1024x256

/-- What @main's last line leaves in the result buffer: the reshape of `result`. -/
theorem tail_eq (c : Dev nD) (hR : RealArgs m c) :
    Pipeline.afterTail₀ cfgs (dats m) 0 (V0 m) [hostOps1] c main_v4 = tail (result m c) := by
  unfold Pipeline.afterTail₀
  show StableHlo.after hostOps1 _ (Proc.devRef .tc main_v4) = _
  after_results
  show shapeCast S16x1024x256 _ _ = _
  unfold tail
  congr 1
  exact (Pipeline.withArrays_arr spec0 launch0.win.arr_inj c _ _ 4).trans (final m c hR)

/-- THE RUN, READ: on finite arguments every weakly fair execution ends with the result buffer at the reshape of
    `result` and the arguments as launched. -/
theorem run (hR : ∀ c, RealArgs m c) : θ_run defs (onTc (τ := τ) (main (F := Ideal))) ⟨m, fun _ => 0, ρ⟩ fun r => ∀ c : Dev nD,
      r.2.mem ((c.tc : Thread nD τ).loc main_v4) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans (tail_eq m c (hR c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c)))⟩)
    (run_main m ρ)

end Cert.KernelIdeal.Hand

end
-- ==== Proof.lean ====
/-
  Patch merging, layer normalisation over the merged 512 entries, and a 512 → 256 projection: the kernel against its
  reference, both launching one pipelined region.

  Both programs end at the same reshape of one [16384, 256] array `G` of the arguments (Proof/Spec.lean): entry
  (token, channel) is the projection, by the channel's row of the weight, of the token's 2 × 2 patch of positions
  normalised over its 512 entries, scaled by γ and shifted by β.  The reference computes exactly that, block of 1024 tokens
  by block (Proof/RefPayload.lean, Proof/RefValue.lean).  The kernel, on blocks of 2048 tokens, takes the variance as the mean
  of squares minus the squared mean and folds γ, β and the mean through the projection (Proof/KerPayload.lean); over finite
  reals — which the precondition grants (Proof/Finite.lean) — that is the same number (Proof/Algebra.lean), so it too leaves
  `G` (Proof/KerValue.lean).  The three frames are the generated ones; the idealization rewrote nothing.
-/
import proofs.«177595_g2000604256433566_pallasbulk_677_14_alg».proof.Defs
import proofs.«177595_g2000604256433566_pallasbulk_677_14_alg».proof.Proof.Gen.Kernel
import proofs.«177595_g2000604256433566_pallasbulk_677_14_alg».proof.Proof.Gen.Kernel.Skeleton
import proofs.«177595_g2000604256433566_pallasbulk_677_14_alg».proof.Proof.Gen.Kernel.Launch
import proofs.«177595_g2000604256433566_pallasbulk_677_14_alg».proof.Proof.Gen.Kernel.Points
import proofs.«177595_g2000604256433566_pallasbulk_677_14_alg».proof.Proof.Gen.Kernel.Frame
import proofs.«177595_g2000604256433566_pallasbulk_677_14_alg».proof.Proof.Gen.KernelIdeal
import proofs.«177595_g2000604256433566_pallasbulk_677_14_alg».proof.Proof.Gen.KernelIdeal.Skeleton
import proofs.«177595_g2000604256433566_pallasbulk_677_14_alg».proof.Proof.Gen.KernelIdeal.Launch
import proofs.«177595_g2000604256433566_pallasbulk_677_14_alg».proof.Proof.Gen.KernelIdeal.Points
import proofs.«177595_g2000604256433566_pallasbulk_677_14_alg».proof.Proof.Gen.KernelIdeal.Frame
import proofs.«177595_g2000604256433566_pallasbulk_677_14_alg».proof.Proof.Gen.ReferenceIdeal
import proofs.«177595_g2000604256433566_pallasbulk_677_14_alg».proof.Proof.Gen.ReferenceIdeal.Skeleton
import proofs.«177595_g2000604256433566_pallasbulk_677_14_alg».proof.Proof.Gen.ReferenceIdeal.Launch
import proofs.«177595_g2000604256433566_pallasbulk_677_14_alg».proof.Proof.Gen.ReferenceIdeal.Points
import proofs.«177595_g2000604256433566_pallasbulk_677_14_alg».proof.Proof.Gen.ReferenceIdeal.Frame
import proofs.«177595_g2000604256433566_pallasbulk_677_14_alg».proof.Proof.Gen.Pre_finite_inputs
import proofs.«177595_g2000604256433566_pallasbulk_677_14_alg».proof.Proof.Finite
import proofs.«177595_g2000604256433566_pallasbulk_677_14_alg».proof.Proof.RefValue
import proofs.«177595_g2000604256433566_pallasbulk_677_14_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The precondition makes every entry of the kernel's four arguments a finite real. -/
theorem realArgs (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Hand.RealArgs m c :=
  Cert.MergeNorm.real_of_pre _ _ _ _ (h c)

/-- From memories agreeing on the arguments both programs end at the reshape of `G` of those arguments. -/
theorem algebraic : Cert.algebraic_KernelIdeal_ReferenceIdeal := by
  intro m ρ m' ρ' hpre hagree
  refine ⟨fun c => Cert.KernelIdeal.Hand.tail (Cert.KernelIdeal.Hand.result m c),
    Cert.KernelIdeal.Hand.run m ρ (realArgs m hpre), ?_⟩
  refine (θ_run Cert.ReferenceIdeal.defs _ _).mono (fun _ h c => ⟨(h c).1.trans ?_, (h c).2⟩)
    (Cert.ReferenceIdeal.Hand.run m' ρ')
  unfold Cert.ReferenceIdeal.Hand.tail Cert.KernelIdeal.Hand.tail Cert.ReferenceIdeal.Hand.result Cert.KernelIdeal.Hand.result
    Cert.ReferenceIdeal.Hand.argX Cert.ReferenceIdeal.Hand.argG Cert.ReferenceIdeal.Hand.argB Cert.ReferenceIdeal.Hand.argW
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
